-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : IVec S16777216 32) (main_arg1 : IVec S16777216 32) : IVec S_ 1 :=
  let main_c : IVec S_ 32 := constantI S_ 32 0#32
  let main_v0 : IVec S16777216 32 := broadcastInDim S16777216 ![] bcast_S_S16777216 main_c
  let main_v1 : IVec S16777216 1 := cmpi .sge main_arg0 main_v0
  let main_c_0 : IVec S_ 32 := constantI S_ 32 9#32
  let main_v2 : IVec S16777216 32 := broadcastInDim S16777216 ![] bcast_S_S16777216 main_c_0
  let main_v3 : IVec S16777216 1 := cmpi .slt main_arg0 main_v2
  let main_v4 : IVec S16777216 1 := andi main_v1 main_v3
  let main_c_1 : IVec S_ 1 := constantI S_ 1 1#1
  let main_v5 : IVec S_ 1 := (fun x v => Host.reduce IntOp.andi x v reducesTo_S16777216_S_d0 h_S_) main_v4 main_c_1
  let main_c_2 : IVec S_ 32 := constantI S_ 32 0#32
  let main_v6 : IVec S16777216 32 := broadcastInDim S16777216 ![] bcast_S_S16777216 main_c_2
  let main_v7 : IVec S16777216 1 := cmpi .sge main_arg1 main_v6
  let main_c_3 : IVec S_ 32 := constantI S_ 32 2#32
  let main_v8 : IVec S16777216 32 := broadcastInDim S16777216 ![] bcast_S_S16777216 main_c_3
  let main_v9 : IVec S16777216 1 := cmpi .slt main_arg1 main_v8
  let main_v10 : IVec S16777216 1 := andi main_v7 main_v9
  let main_c_4 : IVec S_ 1 := constantI S_ 1 1#1
  let main_v11 : IVec S_ 1 := (fun x v => Host.reduce IntOp.andi x v reducesTo_S16777216_S_d0 h_S_) main_v10 main_c_4
  let main_v12 : IVec S_ 1 := andi main_v5 main_v11
  main_v12
-- ==== Kernel.lean ====
abbrev S16777216 : Shape := ⟨1, ![16777216]⟩
abbrev S131072x128 : Shape := ⟨2, ![131072, 128]⟩
abbrev S2x16x128 : Shape := ⟨3, ![2, 16, 128]⟩
abbrev S8192x128 : Shape := ⟨2, ![8192, 128]⟩
abbrev S1x16x128 : Shape := ⟨3, ![1, 16, 128]⟩
abbrev S16x128 : Shape := ⟨2, ![16, 128]⟩
abbrev S8x8192 : Shape := ⟨2, ![8, 8192]⟩
abbrev S1x128 : Shape := ⟨2, ![1, 128]⟩
abbrev S8x128 : Shape := ⟨2, ![8, 128]⟩
abbrev S1x1x128 : Shape := ⟨3, ![1, 1, 128]⟩
abbrev S_ : Shape := ⟨0, ![]⟩
abbrev S16 : Shape := ⟨1, ![16]⟩
abbrev S9 : Shape := ⟨1, ![9]⟩

abbrev nBuf : Space → Nat
  | .hbm => 29
  | .vmem => 8
  | .smem => 0
  | _ => 0

abbrev bufTy : (tb : Table) → Fin (tcTables nBuf tb) → BufTy
  | .hbm, ⟨0, _⟩ => ⟨S16777216, .i32⟩
  | .hbm, ⟨1, _⟩ => ⟨S16777216, .i32⟩
  | .hbm, ⟨2, _⟩ => ⟨S131072x128, .i32⟩
  | .hbm, ⟨3, _⟩ => ⟨S131072x128, .i32⟩
  | .hbm, ⟨4, _⟩ => ⟨S2x16x128, .f32⟩
  | .hbm, ⟨5, _⟩ => ⟨S2x16x128, .f32⟩
  | .hbm, ⟨6, _⟩ => ⟨S_, .f32⟩
  | .hbm, ⟨7, _⟩ => ⟨S16x128, .f32⟩
  | .hbm, ⟨8, _⟩ => ⟨S_, .f32⟩
  | .hbm, ⟨9, _⟩ => ⟨S16, .f32⟩
  | .hbm, ⟨10, _⟩ => ⟨S9, .f32⟩
  | .hbm, ⟨11, _⟩ => ⟨S_, .f32⟩
  | .hbm, ⟨12, _⟩ => ⟨S16x128, .f32⟩
  | .hbm, ⟨13, _⟩ => ⟨S_, .f32⟩
  | .hbm, ⟨14, _⟩ => ⟨S16, .f32⟩
  | .hbm, ⟨15, _⟩ => ⟨S9, .f32⟩
  | .hbm, ⟨16, _⟩ => ⟨S9, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S9, .f32⟩
  | .hbm, ⟨22, _⟩ => ⟨S9, .f32⟩
  | .hbm, ⟨23, _⟩ => ⟨S9, .f32⟩
  | .hbm, ⟨24, _⟩ => ⟨S9, .f32⟩
  | .hbm, ⟨25, _⟩ => ⟨S9, .f32⟩
  | .hbm, ⟨26, _⟩ => ⟨S9, .f32⟩
  | .hbm, ⟨27, _⟩ => ⟨S_, .f32⟩
  | .hbm, ⟨28, _⟩ => ⟨S_, .f32⟩
  | .local _ .vmem, ⟨0, _⟩ => ⟨S8192x128, .i32⟩
  | .local _ .vmem, ⟨1, _⟩ => ⟨S8192x128, .i32⟩
  | .local _ .vmem, ⟨2, _⟩ => ⟨S8192x128, .i32⟩
  | .local _ .vmem, ⟨3, _⟩ => ⟨S8192x128, .i32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | _, _ => ⟨S16777216, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16777216_S131072x128 : S16777216.ShapeCasts S131072x128
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S1x16x128 : S16x128.ShapeCasts S1x16x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  natLt_1_32 : 1 < 32
  bitsLt_bf16_f32 : FTy.bits .bf16 < FTy.bits .f32
  slices_S8x128_o0_0_S1x128 : S8x128.Slices ![0, 0] S1x128
  inb_S1x16x128_S1x1x128_0_0_0 : ∀ a, (![0, 0, 0] : Fin 3 → Nat) a + S1x1x128.size a ≤ S1x16x128.size a
  h_S1x1x128 : 0 < S1x1x128.numel
  shapeCasts_S1x1x128_S1x128 : S1x1x128.ShapeCasts S1x128
  shapeCasts_S1x128_S1x1x128 : S1x128.ShapeCasts S1x1x128
  inb_S1x16x128_S1x1x128_0_1_0 : ∀ a, (![0, 1, 0] : Fin 3 → Nat) a + S1x1x128.size a ≤ S1x16x128.size a
  inb_S1x16x128_S1x1x128_0_2_0 : ∀ a, (![0, 2, 0] : Fin 3 → Nat) a + S1x1x128.size a ≤ S1x16x128.size a
  inb_S1x16x128_S1x1x128_0_3_0 : ∀ a, (![0, 3, 0] : Fin 3 → Nat) a + S1x1x128.size a ≤ S1x16x128.size a
  inb_S1x16x128_S1x1x128_0_4_0 : ∀ a, (![0, 4, 0] : Fin 3 → Nat) a + S1x1x128.size a ≤ S1x16x128.size a
  inb_S1x16x128_S1x1x128_0_5_0 : ∀ a, (![0, 5, 0] : Fin 3 → Nat) a + S1x1x128.size a ≤ S1x16x128.size a
  inb_S1x16x128_S1x1x128_0_6_0 : ∀ a, (![0, 6, 0] : Fin 3 → Nat) a + S1x1x128.size a ≤ S1x16x128.size a
  inb_S1x16x128_S1x1x128_0_7_0 : ∀ a, (![0, 7, 0] : Fin 3 → Nat) a + S1x1x128.size a ≤ S1x16x128.size a
  inb_S1x16x128_S1x1x128_0_8_0 : ∀ a, (![0, 8, 0] : Fin 3 → Nat) a + S1x1x128.size a ≤ S1x16x128.size a
  reducesTo_S2x16x128_S16x128_d0 : S2x16x128.ReducesTo [0] S16x128
  h_S_ : 0 < S_.numel
  reducesTo_S16x128_S16_d1 : S16x128.ReducesTo [1] S16
  slices_S16_S9_0 : S16.Slices ![0] S9
  reducesTo_S9_S_d0 : S9.ReducesTo [0] S_
  bcast_S_S9 : S_.BroadcastsInDim S9 (![] : Fin 0 → Fin S9.rank)
  dot_S8x8192_S8192x128_S8x128_1_0_0_1_n_n_wf : DotDims.WF S8x8192 S8192x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .i32 = 32 ∨ (Rect.block (s := S131072x128) S8192x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .i32 = 32 ∨ (Rect.block (s := S131072x128) S8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128.size a ≤ S2x16x128.size a
  hwx0_2 : ∀ i : grid0.Coords, EltTy.bits .f32 = 32 ∨ (Rect.block (s := S2x16x128) S1x16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x128.size a ≤ S2x16x128.size a
  hwx0_3 : ∀ i : grid0.Coords, EltTy.bits .f32 = 32 ∨ (Rect.block (s := S2x16x128) S1x16x128.size (cc0_transform_3 i) (hinb0_3 i)).WholeWords (EltTy.packing .f32)

variable [Facts₀]

def dot_S8x8192_S8192x128_S8x128_1_0_0_1_n_n : DotDims S8x8192 S8192x128 S8x128 where
  lhsContracting := [1]
  rhsContracting := [0]
  lhsNonContracting := [0]
  rhsNonContracting := [1]
  lhsBatch := []
  rhsBatch := []
  wf := dot_S8x8192_S8192x128_S8x128_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x16x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x16x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩
abbrev S18 : Shape := ⟨1, ![18]⟩
abbrev S16777216x1 : Shape := ⟨2, ![16777216, 1]⟩
abbrev S9x2 : Shape := ⟨2, ![9, 2]⟩
abbrev S9x1 : Shape := ⟨2, ![9, 1]⟩
abbrev S9 : Shape := ⟨1, ![9]⟩

abbrev nBuf : Space → Nat
  | .hbm => 34
  | .vmem => 0
  | .smem => 0
  | _ => 0

abbrev bufTy : (tb : Table) → Fin (tcTables nBuf tb) → BufTy
  | .hbm, ⟨0, _⟩ => ⟨S16777216, .i32⟩
  | .hbm, ⟨1, _⟩ => ⟨S16777216, .i32⟩
  | .hbm, ⟨2, _⟩ => ⟨S_, .i32⟩
  | .hbm, ⟨3, _⟩ => ⟨S16777216, .i32⟩
  | .hbm, ⟨4, _⟩ => ⟨S16777216, .i32⟩
  | .hbm, ⟨5, _⟩ => ⟨S16777216, .i32⟩
  | .hbm, ⟨6, _⟩ => ⟨S_, .f32⟩
  | .hbm, ⟨7, _⟩ => ⟨S16777216, .f32⟩
  | .hbm, ⟨8, _⟩ => ⟨S_, .f32⟩
  | .hbm, ⟨9, _⟩ => ⟨S18, .f32⟩
  | .hbm, ⟨10, _⟩ => ⟨S16777216x1, .i32⟩
  | .hbm, ⟨11, _⟩ => ⟨S18, .f32⟩
  | .hbm, ⟨12, _⟩ => ⟨S9x2, .f32⟩
  | .hbm, ⟨13, _⟩ => ⟨S_, .i32⟩
  | .hbm, ⟨14, _⟩ => ⟨S16777216, .i32⟩
  | .hbm, ⟨15, _⟩ => ⟨S16777216, .i1⟩
  | .hbm, ⟨16, _⟩ => ⟨S16777216, .i32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S9x1, .f32⟩
  | .hbm, ⟨23, _⟩ => ⟨S9, .f32⟩
  | .hbm, ⟨24, _⟩ => ⟨S9, .f32⟩
  | .hbm, ⟨25, _⟩ => ⟨S9, .f32⟩
  | .hbm, ⟨26, _⟩ => ⟨S9x1, .f32⟩
  | .hbm, ⟨27, _⟩ => ⟨S9, .f32⟩
  | .hbm, ⟨28, _⟩ => ⟨S9, .f32⟩
  | .hbm, ⟨29, _⟩ => ⟨S9, .f32⟩
  | .hbm, ⟨30, _⟩ => ⟨S9, .f32⟩
  | .hbm, ⟨31, _⟩ => ⟨S9, .f32⟩
  | .hbm, ⟨32, _⟩ => ⟨S_, .f32⟩
  | .hbm, ⟨33, _⟩ => ⟨S_, .f32⟩
  | _, _ => ⟨S16777216, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S_S18 : S_.BroadcastsInDim S18 (![] : Fin 0 → Fin S18.rank)
  bcast_S16777216_S16777216x1_0 : S16777216.BroadcastsInDim S16777216x1 (![0] : Fin 1 → Fin S16777216x1.rank)
  shapeCasts_S18_S9x2 : S18.ShapeCasts S9x2
  natLt_1_32 : 1 < 32
  reducesTo_S16777216_S_d0 : S16777216.ReducesTo [0] S_
  h_S_ : 0 < S_.numel
  slices_S9x2_S9x1_0_0 : S9x2.Slices ![0, 0] S9x1
  shapeCasts_S9x1_S9 : S9x1.ShapeCasts S9
  bcast_S_S9 : S_.BroadcastsInDim S9 (![] : Fin 0 → Fin S9.rank)
  slices_S9x2_S9x1_0_1 : S9x2.Slices ![0, 1] S9x1
  reducesTo_S9_S_d0 : S9.ReducesTo [0] S_
  scatter_S18_S16777216x1_S16777216_n_0_0_1_wf : ScatterDims.WF S18 S16777216x1 S16777216 [] [0] [0] 1

variable [Facts₀]

def scatter_S18_S16777216x1_S16777216_n_0_0_1 : ScatterDims S18 S16777216x1 S16777216 where
  updateWindowDims := []
  insertedWindowDims := [0]
  scatterDimsToOperandDims := [0]
  indexVectorDim := 1
  wf := scatter_S18_S16777216x1_S16777216_n_0_0_1_wf

class Facts : Prop extends Facts₀ where

variable [Facts]
-- ==== Proof.RefRead.lean ====
/-
  The reference program's run, read one operation at a time: this module only gathers the generated run and its
  read-at-an-index lemmas for the modules that state the reference's histogram over them.
-/
import proofs.«411819_j74990128988581_3_alg».proof.Proof.Gen.ReferenceIdeal.Run
import proofs.«411819_j74990128988581_3_alg».proof.Proof.Gen.ReferenceIdeal.Read
-- ==== Proof.PreDecode.lean ====
/-
  The precondition read back.  The printed predicate is the conjunction of two tests, each taken over all 2²⁴ words:
  every class id lies in [0, 9) and every group id lies in [0, 2), both compared as signed 32-bit integers.
  When the predicate holds, each of the four inequalities holds at every position.
-/
import proofs.«411819_j74990128988581_3_alg».proof.Pre_any_inputs
import proofs.«411819_j74990128988581_3_alg».proof.Proof.Gen.Pre_any_inputs
import Idealize.ShloMosaic.Lib.ReduceAll

namespace Hist.Pre

open Idealize.ShloMosaic

/-- A scalar has exactly one index. -/
instance : Subsingleton Cert.Pre_any_inputs.S_.Idx := ⟨fun _ _ => funext fun d => d.elim0⟩

/-- The literals the predicate compares against, read as signed integers. -/
theorem toInt_zero : (0#32 : BitVec 32).toInt = 0 := by decide
theorem toInt_nine : (9#32 : BitVec 32).toInt = 9 := by decide
theorem toInt_two : (2#32 : BitVec 32).toInt = 2 := by decide

/-- One word passes the two-sided test against the literals `lo` and `hi` exactly when it lies between them, signed. -/
theorem between {x lo hi : BitVec 32}
    (h : IntOp.andi (IntOp.cmpi .sge x lo) (IntOp.cmpi .slt x hi) = 1#1) : lo.toInt ≤ x.toInt ∧ x.toInt < hi.toInt := by
  obtain ⟨h1, h2⟩ := IntOp.andi_eq_one.1 h
  exact ⟨IntOp.cmpi_sge.1 h1, IntOp.cmpi_slt.1 h2⟩

theorem ranges {F : FTy → Type} [FloatOps F] [Cert.Pre_any_inputs.Facts]
    (p a : IVec Cert.Pre_any_inputs.S16777216 32)
    (h : Cert.Pre_any_inputs.fn (F := F) p a = (fun _ => 1#1)) :
    ∀ i : Cert.Pre_any_inputs.S16777216.Idx,
      (0 ≤ (p i).toInt ∧ (p i).toInt < 9) ∧ (0 ≤ (a i).toInt ∧ (a i).toInt < 2) := by
  intro i
  -- the predicate's one value is 1
  have h0 := congrFun h (fun d => d.elim0)
  dsimp only [Cert.Pre_any_inputs.fn] at h0
  -- it is the conjunction of the two `all`s
  obtain ⟨hp, ha⟩ := IntOp.andi_eq_one.1 h0
  -- each `all` holds at every position, in particular at `i`
  have hpi := Host.reduce_andi_all _ _ _ _ _ hp i
  have hai := Host.reduce_andi_all _ _ _ _ _ ha i
  -- at one position the test is the two-sided comparison of the word against the broadcast literals
  have bp := between hpi
  have ba := between hai
  refine ⟨?_, ?_⟩
  · have e0 : (0 : Int) = (0#32 : BitVec 32).toInt := toInt_zero.symm
    have e9 : (9 : Int) = (9#32 : BitVec 32).toInt := toInt_nine.symm
    rw [e0, e9]; exact bp
  · have e0 : (0 : Int) = (0#32 : BitVec 32).toInt := toInt_zero.symm
    have e2 : (2 : Int) = (2#32 : BitVec 32).toInt := toInt_two.symm
    rw [e0, e2]; exact ba

end Hist.Pre
-- ==== Proof.Spec.lean ====
/-
  The histogram both programs compute, stated over literal shapes and independent of either program.

  A class id `p` and a group id `a` are 32-bit words.  The weight of a test is 1 or 0.  Within one block of
  8192 rows by 128 lanes, `colTot x r l` counts, in lane `l`, the rows whose class id is `r`; `colG1 x a r l` counts
  those among them whose group id is non-zero; `colW a l` counts the rows of lane `l` whose group id is non-zero.
  `dTot` / `dG1` are what one block adds to row `r` of the two per-lane accumulators: the count itself for the first
  eight classes; for class 8 the complement (all 8192 rows, resp. all rows with a non-zero group id, minus the
  first eight classes' counts); nothing for the padding rows 9..15.
  `tail` is the closing computation shared by both programs: from the per-class counts of group 0 and group 1 and
  the number n₁ of samples in group 1, the sum over the classes of (g₀/(2²⁴ − n₁) − g₁/n₁)².
-/
import Idealize.ShloMosaic.PureOps.Ideal
import Idealize.ShloMosaic.PureOps.Contract
import Idealize.ShloMosaic.Lib.ValueIdx

noncomputable section

namespace Hist

open Idealize.ShloMosaic Idealize.ShloMosaic.ValueIdx

/-- One input block: 8192 rows, 128 lanes. -/
abbrev SB : Shape := ⟨2, ![8192, 128]⟩
/-- One output block: 16 rows (9 classes, 7 of padding), 128 lanes. -/
abbrev SO : Shape := ⟨3, ![1, 16, 128]⟩
/-- The output array: one block per core. -/
abbrev SA : Shape := ⟨3, ![2, 16, 128]⟩
/-- The inputs as a matrix of 131072 rows by 128 lanes. -/
abbrev SM : Shape := ⟨2, ![131072, 128]⟩
/-- The inputs as given: 2²⁴ words. -/
abbrev SN : Shape := ⟨1, ![16777216]⟩
abbrev S9 : Shape := ⟨1, ![9]⟩
abbrev S0 : Shape := ⟨0, ![]⟩

/-- The weight of a test: 1 when it holds, 0 when it does not. -/
def w (P : Prop) [Decidable P] : EReal := if P then 1 else 0

/-- In lane `l` of block `x`, the number of rows whose word is `r`. -/
def colTot (x : SB.Idx → BitVec 32) (r : ℕ) (l : Fin 128) : EReal :=
  ∑ k : Fin 8192, w (x (ix2 k l) = BitVec.ofNat 32 r)

/-- In lane `l`, the number of rows whose class word is `r` and whose group word is not zero. -/
def colG1 (x a : SB.Idx → BitVec 32) (r : ℕ) (l : Fin 128) : EReal :=
  ∑ k : Fin 8192, w (x (ix2 k l) = BitVec.ofNat 32 r) * w (a (ix2 k l) ≠ 0#32)

/-- In lane `l`, the number of rows whose group word is not zero. -/
def colW (a : SB.Idx → BitVec 32) (l : Fin 128) : EReal :=
  ∑ k : Fin 8192, w (a (ix2 k l) ≠ 0#32)

/-- What one block adds to row `r`, lane `l` of the per-class totals. -/
def dTot (x : SB.Idx → BitVec 32) (r : Fin 16) (l : Fin 128) : EReal :=
  if r.val < 8 then colTot x r.val l
  else if r.val = 8 then ((8192 : ℝ) : EReal) - ∑ c : Fin 8, colTot x c.val l
  else 0

/-- What one block adds to row `r`, lane `l` of the per-class group-1 counts. -/
def dG1 (x a : SB.Idx → BitVec 32) (r : Fin 16) (l : Fin 128) : EReal :=
  if r.val < 8 then colG1 x a r.val l
  else if r.val = 8 then colW a l - ∑ c : Fin 8, colG1 x a c.val l
  else 0

/-- Block `b` of the sixteen consecutive blocks of 8192·128 words of a flat array, as 8192 rows by 128 lanes,
    row-major: word `(b·8192 + row)·128 + lane`. -/
def blockOf (p : SN.Idx → BitVec 32) (b : Fin 16) : SB.Idx → BitVec 32 :=
  fun y => p (ix1 ⟨(b.val * 8192 + (y 0).val) * 128 + (y 1).val, by
    have h0 : (y 0).val < 8192 := (y 0).isLt
    have h1 : (y 1).val < 128 := (y 1).isLt
    have hb := b.isLt
    omega⟩)

/-- The `j`-th of the eight blocks of core `core`. -/
def blk (core : Fin 2) (j : Fin 8) : Fin 16 := ⟨core.val * 8 + j.val, by have := core.isLt; have := j.isLt; omega⟩

/-- Row `r`, lane `l` of core `core`'s per-lane class totals after its eight blocks. -/
def accTot (p : SN.Idx → BitVec 32) (core : Fin 2) (r : Fin 16) (l : Fin 128) : EReal :=
  ∑ j : Fin 8, dTot (blockOf p (blk core j)) r l

/-- Row `r`, lane `l` of core `core`'s per-lane group-1 counts after its eight blocks. -/
def accG1 (p a : SN.Idx → BitVec 32) (core : Fin 2) (r : Fin 16) (l : Fin 128) : EReal :=
  ∑ j : Fin 8, dG1 (blockOf p (blk core j)) (blockOf a (blk core j)) r l

/-- The two as arrays of 2 cores by 16 rows by 128 lanes. -/
def accTotA (p : SN.Idx → BitVec 32) : SA.Idx → EReal :=
  fun y => accTot p ⟨(y 0).val, (y 0).isLt⟩ ⟨(y 1).val, (y 1).isLt⟩ ⟨(y 2).val, (y 2).isLt⟩
def accG1A (p a : SN.Idx → BitVec 32) : SA.Idx → EReal :=
  fun y => accG1 p a ⟨(y 0).val, (y 0).isLt⟩ ⟨(y 1).val, (y 1).isLt⟩ ⟨(y 2).val, (y 2).isLt⟩

/-- Class `r`'s total over the cores, then over the lanes. -/
def kTot (p : SN.Idx → BitVec 32) (r : Fin 9) : EReal :=
  ∑ l : Fin 128, ∑ core : Fin 2, accTot p core ⟨r.val, by have := r.isLt; omega⟩ l

/-- Class `r`'s group-1 count over the cores, then over the lanes. -/
def kG1 (p a : SN.Idx → BitVec 32) (r : Fin 9) : EReal :=
  ∑ l : Fin 128, ∑ core : Fin 2, accG1 p a core ⟨r.val, by have := r.isLt; omega⟩ l

/-- The two as vectors over the nine classes. -/
def kTotV (p : SN.Idx → BitVec 32) : S9.Idx → EReal := fun j => kTot p ⟨(j 0).val, (j 0).isLt⟩
def kG1V (p a : SN.Idx → BitVec 32) : S9.Idx → EReal := fun j => kG1 p a ⟨(j 0).val, (j 0).isLt⟩

variable {F : FTy → Type} [FloatOps F]

/-- The closing computation: Σ_r (g₀ r / (2²⁴ − n₁) − g₁ r / n₁)², with the host's operations. -/
def tail (hb : S0.BroadcastsInDim S9 (![] : Fin 0 → Fin S9.rank)) (hr : S9.ReducesTo [0] S0) (h0 : 0 < S0.numel)
    (g0 g1 : FVec F S9 .f32) (n1 : FVec F S0 .f32) : FVec F S0 .f32 :=
  let d : FVec F S9 .f32 :=
    subf (Host.divf g0 (broadcastInDim S9 ![] hb (subf (constant S0 .f32 0x4B800000#32) n1)))
      (Host.divf g1 (broadcastInDim S9 ![] hb n1))
  Host.reduceAdd (mulf d d) (constant S0 .f32 0x00000000#32) hr h0

end Hist

end
-- ==== Proof.Payload.lean ====
/-
  The operations the kernel body is made of, read at the ideal values, over literal shapes.

  A 0/1 mask: the bit of a word test, widened to 32 bits, converted to a real and narrowed to bf16, is the weight of
  the test (1 or 0). The product of the all-ones 8 × 8192 tile with an 8192 × 128 matrix, accumulated into zero, has
  in its row 0 the matrix's column sums. Together: row 0 of ones · mask counts, lane by lane, the rows that pass the
  test; with the product of two masks, the rows that pass both. Two constants: the f32 word of 8192 and the bf16
  word of 1.
-/
import proofs.«411819_j74990128988581_3_alg».proof.Proof.Spec
import proofs.«411819_j74990128988581_3_alg».proof.KernelIdeal
import proofs.«411819_j74990128988581_3_alg».proof.Proof.Gen.KernelIdeal
import Idealize.ShloMosaic.PureOps.Ideal.Laws
import Idealize.ShloMosaic.Lib.ValueIdx
import Idealize.ShloMosaic.Lib.Pipeline.Value

set_option synthInstance.maxSize 4096

noncomputable section

namespace Hist.Pay

open Idealize.ShloMosaic Idealize.SL.Sem Idealize.ShloMosaic.ValueIdx
open Cert.KernelIdeal Cert.KernelIdeal.Facts₀

variable [Cert.KernelIdeal.Facts]

/-! ## The constants -/

/-- The f32 word 0x46000000 is 2¹³ = 8192: sign 0, exponent field 140 = 127 + 13, significand field 0. -/
theorem c8192 : Ideal.ofBits .f32 0x46000000#32 = ((8192 : ℝ) : EReal) := by
  simp [Ideal.ofBits, Ideal.ieee, -EReal.coe_mul]
  norm_num

/-- The bf16 word 0x3F80 is 1: sign 0, exponent field 127 (the bias), significand field 0. -/
theorem bf16_one : Ideal.ofBits .bf16 0x3F80#16 = 1 := by
  simp [Ideal.ofBits, Ideal.ieee, -EReal.coe_mul]
  norm_num

/-! ## The 0/1 mask of a test -/

/-- One bit, zero-extended to 32 bits and read as a signed integer, is the real 1 when the bit is set and 0 when
    it is clear (the sign bit of the widened word is clear, so the signed and unsigned readings agree). -/
theorem bit_real (b : Bool) : ((((BitVec.ofBool b).setWidth 32).toInt : ℝ) : EReal) = if b then 1 else 0 := by
  cases b <;> simp

/-- The mask of "the word is r" at row k, lane l: the test's bit, widened, converted to a real (exactly), and
    narrowed to bf16, which changes nothing on extended reals. Its value is the weight of the test. -/
theorem mask_eq_apply (x : IVec S8192x128 32) (r : BitVec 32) (k : Fin 8192) (l : Fin 128) :
    (truncf (F := Ideal) .bf16 (sitofp .f32 (extui 32 (cmpi .eq x (broadcast S8192x128 r)) natLt_1_32)) bitsLt_bf16_f32)
        (ix2 k l)
      = Hist.w (x (ix2 k l) = r) := by
  show ((((BitVec.ofBool (x (ix2 k l) == r)).setWidth 32).toInt : ℝ) : EReal) = _
  rw [bit_real]
  unfold Hist.w
  by_cases h : x (ix2 k l) = r <;> simp [h]

/-- The mask of "the word is not zero" at row k, lane l, likewise. -/
theorem mask_ne_apply (a : IVec S8192x128 32) (k : Fin 8192) (l : Fin 128) :
    (truncf (F := Ideal) .bf16 (sitofp .f32 (extui 32 (cmpi .ne a (broadcast S8192x128 0#32)) natLt_1_32)) bitsLt_bf16_f32)
        (ix2 k l)
      = Hist.w (a (ix2 k l) ≠ 0#32) := by
  show ((((BitVec.ofBool (a (ix2 k l) != 0#32)).setWidth 32).toInt : ℝ) : EReal) = _
  rw [bit_real]
  unfold Hist.w
  by_cases h : a (ix2 k l) = 0#32 <;> simp [h]

/-! ## The all-ones tile times a matrix -/

/-- In the product of an 8 × 8192 matrix with an 8192 × 128 one (contracting the left operand's axis 1 with the
    right operand's axis 0), the right operand's index at output (i, l) and contraction position k is (k, l):
    axis 0 is the contracted one and reads k, axis 1 is the right operand's free axis and reads the output's lane. -/
theorem rhsIdx_eq (i : Fin 8) (l : Fin 128) (k : Fin 8192) :
    dot_S8x8192_S8192x128_S8x128_1_0_0_1_n_n.rhsIdx (ix2 i l)
      ((contrEquiv1 dot_S8x8192_S8192x128_S8x128_1_0_0_1_n_n 8192 rfl rfl).symm k) = ix2 k l := by
  funext a
  refine Fin.ext ?_
  match a with
  | ⟨0, _⟩ =>
    have h := DotDims.rhsIdx_val_of_single dot_S8x8192_S8192x128_S8x128_1_0_0_1_n_n (cr := (0 : Fin 2)) rfl (ix2 i l)
      ((contrEquiv1 dot_S8x8192_S8192x128_S8x128_1_0_0_1_n_n 8192 rfl rfl).symm k)
    exact h.trans (contrEquiv1_symm_val dot_S8x8192_S8192x128_S8x128_1_0_0_1_n_n 8192 rfl rfl k)
  | ⟨1, _⟩ =>
    simp [DotDims.rhsIdx, dot_S8x8192_S8192x128_S8x128_1_0_0_1_n_n]
    rfl

/-- Row 0 of (all-ones 8 × 8192) · v, accumulated into zero, is v's column sum: at lane l,
    Σ_k 1 · v(k, l) = Σ_k v(k, l). The slice at offset (0, 0) reads row 0 of the product; the product at (0, l)
    is the sum over the contraction index of the operands' products; the contraction index is re-indexed by its
    one coordinate k; every entry of the left operand is the bf16 word for 1. -/
theorem ones_matmul_row0 (v : FVec Ideal S8192x128 .bf16) (l : Fin 128) :
    (extractStridedSlice S1x128 ![0, 0] (matmul dot_S8x8192_S8192x128_S8x128_1_0_0_1_n_n none
        (broadcast S8x8192 (Scalar.ofBits (F := Ideal) .bf16 0x3F80#16)) v
        (constant (F := Ideal) S8x128 .f32 0x00000000#32)) slices_S8x128_o0_0_S1x128) (ix2 (0 : Fin 1) l)
      = ∑ k : Fin 8192, v (ix2 k l) := by
  rw [extractStridedSlice_apply _ _ _ _ (ix2 (0 : Fin 8) l) (fun a => by
    match a with
    | ⟨0, _⟩ => rfl
    | ⟨1, _⟩ => simp)]
  simp only [matmul]
  rw [Ideal.matmul_constant_zero_apply]
  rw [← Equiv.sum_comp (contrEquiv1 dot_S8x8192_S8192x128_S8x128_1_0_0_1_n_n 8192 rfl rfl).symm]
  refine Finset.sum_congr rfl fun k _ => ?_
  rw [rhsIdx_eq, broadcast_apply]
  show Ideal.ofBits .bf16 0x3F80#16 * _ = _
  rw [bf16_one, one_mul]

/-- Every index of a 1 × 128 vector is (0, l). -/
theorem idx_S1x128 (j : S1x128.Idx) : j = ix2 (0 : Fin 1) (j 1) := by
  have h0 : j 0 = (0 : Fin 1) := Subsingleton.elim (α := Fin 1) _ _
  exact (eq_ix2 j).trans (congrArg (fun a : Fin 1 => ix2 a (j 1)) h0)

/-! ## The column sums the body computes -/

/-- Row 0 of ones · (mask of "x = r"), at lane l: the number of rows k of lane l with x(k, l) = r. -/
theorem col_tot (x : IVec S8192x128 32) (r : BitVec 32) (l : Fin 128) :
    (extractStridedSlice S1x128 ![0, 0] (matmul dot_S8x8192_S8192x128_S8x128_1_0_0_1_n_n none
        (broadcast S8x8192 (Scalar.ofBits (F := Ideal) .bf16 0x3F80#16))
        (truncf (F := Ideal) .bf16 (sitofp .f32 (extui 32 (cmpi .eq x (broadcast S8192x128 r)) natLt_1_32)) bitsLt_bf16_f32)
        (constant (F := Ideal) S8x128 .f32 0x00000000#32)) slices_S8x128_o0_0_S1x128) (ix2 (0 : Fin 1) l)
      = ∑ k : Fin 8192, Hist.w (x (ix2 k l) = r) := by
  rw [ones_matmul_row0]
  exact Finset.sum_congr rfl fun k _ => mask_eq_apply x r k l

/-- Row 0 of ones · (mask of "x = r" times mask of "a ≠ 0"), at lane l: the number of rows of lane l with
    x(k, l) = r and a(k, l) ≠ 0, as the sum of the products of the two weights. -/
theorem col_g1 (x a : IVec S8192x128 32) (r : BitVec 32) (l : Fin 128) :
    (extractStridedSlice S1x128 ![0, 0] (matmul dot_S8x8192_S8192x128_S8x128_1_0_0_1_n_n none
        (broadcast S8x8192 (Scalar.ofBits (F := Ideal) .bf16 0x3F80#16))
        (mulf
          (truncf (F := Ideal) .bf16 (sitofp .f32 (extui 32 (cmpi .eq x (broadcast S8192x128 r)) natLt_1_32)) bitsLt_bf16_f32)
          (truncf (F := Ideal) .bf16 (sitofp .f32 (extui 32 (cmpi .ne a (broadcast S8192x128 0#32)) natLt_1_32)) bitsLt_bf16_f32))
        (constant (F := Ideal) S8x128 .f32 0x00000000#32)) slices_S8x128_o0_0_S1x128) (ix2 (0 : Fin 1) l)
      = ∑ k : Fin 8192, Hist.w (x (ix2 k l) = r) * Hist.w (a (ix2 k l) ≠ 0#32) := by
  rw [ones_matmul_row0]
  refine Finset.sum_congr rfl fun k _ => ?_
  rw [mulf_apply, mask_eq_apply, mask_ne_apply]

/-- Row 0 of ones · (mask of "a ≠ 0"), at lane l: the number of rows of lane l with a(k, l) ≠ 0. -/
theorem col_w (a : IVec S8192x128 32) (l : Fin 128) :
    (extractStridedSlice S1x128 ![0, 0] (matmul dot_S8x8192_S8192x128_S8x128_1_0_0_1_n_n none
        (broadcast S8x8192 (Scalar.ofBits (F := Ideal) .bf16 0x3F80#16))
        (truncf (F := Ideal) .bf16 (sitofp .f32 (extui 32 (cmpi .ne a (broadcast S8192x128 0#32)) natLt_1_32)) bitsLt_bf16_f32)
        (constant (F := Ideal) S8x128 .f32 0x00000000#32)) slices_S8x128_o0_0_S1x128) (ix2 (0 : Fin 1) l)
      = Hist.colW a l := by
  rw [ones_matmul_row0]
  exact Finset.sum_congr rfl fun k _ => mask_ne_apply a k l

/-- The first two at the class word of a natural number n, as the specification names them. -/
theorem col_tot_nat (x : IVec S8192x128 32) (n : ℕ) (l : Fin 128) :
    (extractStridedSlice S1x128 ![0, 0] (matmul dot_S8x8192_S8192x128_S8x128_1_0_0_1_n_n none
        (broadcast S8x8192 (Scalar.ofBits (F := Ideal) .bf16 0x3F80#16))
        (truncf (F := Ideal) .bf16 (sitofp .f32 (extui 32 (cmpi .eq x (broadcast S8192x128 (BitVec.ofNat 32 n))) natLt_1_32)) bitsLt_bf16_f32)
        (constant (F := Ideal) S8x128 .f32 0x00000000#32)) slices_S8x128_o0_0_S1x128) (ix2 (0 : Fin 1) l)
      = Hist.colTot x n l :=
  col_tot x (BitVec.ofNat 32 n) l

theorem col_g1_nat (x a : IVec S8192x128 32) (n : ℕ) (l : Fin 128) :
    (extractStridedSlice S1x128 ![0, 0] (matmul dot_S8x8192_S8192x128_S8x128_1_0_0_1_n_n none
        (broadcast S8x8192 (Scalar.ofBits (F := Ideal) .bf16 0x3F80#16))
        (mulf
          (truncf (F := Ideal) .bf16 (sitofp .f32 (extui 32 (cmpi .eq x (broadcast S8192x128 (BitVec.ofNat 32 n))) natLt_1_32)) bitsLt_bf16_f32)
          (truncf (F := Ideal) .bf16 (sitofp .f32 (extui 32 (cmpi .ne a (broadcast S8192x128 0#32)) natLt_1_32)) bitsLt_bf16_f32))
        (constant (F := Ideal) S8x128 .f32 0x00000000#32)) slices_S8x128_o0_0_S1x128) (ix2 (0 : Fin 1) l)
      = Hist.colG1 x a n l :=
  col_g1 x a (BitVec.ofNat 32 n) l

end Hist.Pay

end
-- ==== Proof.BodyA.lean ====
/-
  What the kernel body leaves in the two output blocks at a grid point that starts a core's run (the reset
  case): the block is zeroed and each of the rows 0..8 then receives its increment, so row `r`, lane `l` ends at
  the block's own increment `dTot` (resp. `dG1`), the padding rows at zero.
-/
import proofs.«411819_j74990128988581_3_alg».proof.Proof.Gen.KernelIdeal.Frame
import proofs.«411819_j74990128988581_3_alg».proof.Proof.Spec
import proofs.«411819_j74990128988581_3_alg».proof.Proof.Payload
import Idealize.ShloMosaic.Lib.Pipeline.Value
import Idealize.ShloMosaic.Lib.ValueIdx
import Idealize.ShloMosaic.PureOps.Ideal.Laws

set_option maxRecDepth 16384

noncomputable section

namespace Hist.Body

open Idealize.ShloMosaic Idealize.ShloMosaic.TcCoe Idealize.ShloMosaic.Tactic Idealize.ShloMosaic.ValueIdx
open Idealize.SL Idealize.SL.Sem
open Cert.KernelIdeal Cert.KernelIdeal.Gen

/-! ## Auxiliary lemmas of the reset case -/

namespace CaseA

/-! ### Walking down a list of row pieces at one index -/

section Walk
variable {Val : EltTy → Type} [∀ e, Nonempty (Val e)] {e : EltTy}

/-- A piece that is row `k` of the block does not hold an index of another row. -/
theorem canon_skip {k : ℕ} {sz : Fin 3 → ℕ} {inb} (w) (L : List (View.Piece Val S1x16x128 e)) (r : Fin 16) (l : Fin 128)
    (h : r.val ≠ k) (hsz : sz 1 = 1 := by rfl) :
    View.canon (⟨Rect.unit (s := S1x16x128) ![0, k, 0] sz inb, w⟩ :: L) (ix3 (0 : Fin 1) r l)
      = View.canon L (ix3 (0 : Fin 1) r l) := by
  apply View.canon_cons_of_not_mem
  rw [Rect.mem_set_unit]
  intro hm
  have h1 := hm 1
  have e1 : (ix3 (0 : Fin 1) r l) 1 = r := rfl
  have e2 : (![0, k, 0] : Fin 3 → ℕ) 1 = k := rfl
  rw [e1, e2, hsz] at h1
  omega

/-- The piece that is row `k` holds the index of row `k`, lane `l`, as its own lane `l`. -/
theorem canon_hit {k : ℕ} {inb} (w : (⟨3, ![1, 1, 128]⟩ : Shape).Idx → Val e) (L : List (View.Piece Val S1x16x128 e))
    (r : Fin 16) (l : Fin 128) (h : r.val = k) :
    View.canon (⟨Rect.unit (s := S1x16x128) ![0, k, 0] ![1, 1, 128] inb, w⟩ :: L) (ix3 (0 : Fin 1) r l)
      = w (ix3 (0 : Fin 1) (0 : Fin 1) l) := by
  have hy : ix3 (0 : Fin 1) r l
      = (Rect.unit (s := S1x16x128) ![0, k, 0] ![1, 1, 128] inb).emb (ix3 (0 : Fin 1) (0 : Fin 1) l) := by
    funext a
    apply Fin.ext
    rw [Rect.emb_apply]
    fin_cases a
    · rfl
    · show r.val = k + 1 * 0
      omega
    · show l.val = 0 + 1 * l.val
      omega
  rw [hy]
  exact View.canon_cons_emb (Rect.unit (s := S1x16x128) ![0, k, 0] ![1, 1, 128] inb) w L _

/-- A load of row `k` after the writes `L` reads, at lane `l`, what they leave at row `k`, lane `l`. -/
theorem readCov_row {sg : RefSig} {κ : Kind} {sp : Space} (v : View sg κ sp S1x16x128 e) (L : List (View.Piece Val S1x16x128 e))
    {k : ℕ} {inb} (hk : k < 16) (l : Fin 128) :
    v.readCov L (Rect.unit (s := S1x16x128) ![0, k, 0] S1x1x128.size inb).toLoadRect (ix3 (0 : Fin 1) (0 : Fin 1) l)
      = View.canon L (ix3 (0 : Fin 1) (⟨k, hk⟩ : Fin 16) l) := by
  rw [View.readCov_eq_canon']
  show View.canon L _ = View.canon L _
  congr 1
  funext a
  apply Fin.ext
  fin_cases a
  · rfl
  · show k + 1 * 0 = k
    omega
  · show 0 + 1 * l.val = l.val
    omega

end Walk

theorem hz3 : (![0, 0, 0] : Fin 3 → Nat) = fun _ => 0 := funext fun a => by fin_cases a <;> rfl
theorem hz : (![0, 0] : Fin 2 → Nat) = fun _ => 0 := funext fun a => by fin_cases a <;> rfl

/-- The zeroing store, at any index. -/
theorem canon_zero2 {inb} (L : List (View.Piece (Elt Ideal) S1x16x128 .f32)) (y : S1x16x128.Idx) :
    View.canon (⟨Rect.unit (s := S1x16x128) ![0, 0, 0] S1x16x128.size inb, k0_pay3 (F := Ideal)⟩ :: L) y = (0 : EReal) := by
  rw [View.canon_cons_unit_zero (S := S1x16x128) hz3]
  exact Ideal.ofBits_zero_f32

theorem canon_zero3 {inb} (L : List (View.Piece (Elt Ideal) S1x16x128 .f32)) (y : S1x16x128.Idx) :
    View.canon (⟨Rect.unit (s := S1x16x128) ![0, 0, 0] S1x16x128.size inb, k0_pay4 (F := Ideal)⟩ :: L) y = (0 : EReal) := by
  rw [View.canon_cons_unit_zero (S := S1x16x128) hz3]
  exact Ideal.ofBits_zero_f32

/-- A row's store: what was loaded plus the increment, at lane `l`. -/
theorem row_pay (LD : Vec Ideal S1x1x128 .f32) (T : FVec Ideal S1x128 .f32) (l : Fin 128) :
    shapeCast S1x1x128 (addf (shapeCast S1x128 LD Facts₀.shapeCasts_S1x1x128_S1x128) T) Facts₀.shapeCasts_S1x128_S1x1x128
        (ix3 (0 : Fin 1) (0 : Fin 1) l)
      = LD (ix3 (0 : Fin 1) (0 : Fin 1) l) + T (ix2 (0 : Fin 1) l) := by
  have e : (fun a : Fin 2 => (ix3 (0 : Fin 1) (0 : Fin 1) l) a.succ) = ix2 (0 : Fin 1) l := by
    funext a; fin_cases a <;> rfl
  have e' : (Fin.cons ⟨0, Nat.one_pos⟩ (ix2 (0 : Fin 1) l) : (⟨3, Matrix.vecCons 1 ![1, 128]⟩ : Shape).Idx)
      = ix3 (0 : Fin 1) (0 : Fin 1) l := by
    funext a; fin_cases a <;> rfl
  refine (shapeCast_addUnit_apply ![1, 128] _ _ _).trans ?_
  refine (congrArg (addf (shapeCast S1x128 LD Facts₀.shapeCasts_S1x1x128_S1x128) T) e).trans ?_
  show shapeCast S1x128 LD _ (ix2 (0 : Fin 1) l) + T (ix2 (0 : Fin 1) l) = _
  refine congrArg (· + T (ix2 (0 : Fin 1) l)) ?_
  refine (shapeCast_dropUnit_apply ![1, 128] _ _ _).trans ?_
  exact congrArg LD e'

theorem add_eq_of {a b c : EReal} (h1 : a = 0) (h2 : b = c) : a + b = c := by rw [h1, h2, zero_add]

/-! ### The increments: each class's column count as the body computes it -/

section Leaves
open Hist.Pay

variable (x a : IVec S8192x128 32) (l : Fin 128)

theorem pay5_eq : k0_pay5 (F := Ideal) x = x := shapeCast_self _ _

/-- The group mask the body computes once: the weight of "the group word is not zero". -/
theorem pay6_eq : k0_pay6 (F := Ideal) a
    = truncf (F := Ideal) .bf16 (sitofp .f32 (extui 32 (cmpi .ne a (broadcast S8192x128 0#32)) Facts₀.natLt_1_32)) Facts₀.bitsLt_bf16_f32 := by
  unfold k0_pay6
  rw [shapeCast_self]

theorem tot0 : k0_pay11 (F := Ideal) x (ix2 (0 : Fin 1) l) = Hist.colTot x 0 l := by
  unfold k0_pay11 k0_pay10 k0_pay7
  rw [pay5_eq]
  exact col_tot_nat x 0 l
theorem tot1 : k0_pay17 (F := Ideal) x k0_pay7 (ix2 (0 : Fin 1) l) = Hist.colTot x 1 l := by
  unfold k0_pay17 k0_pay16 k0_pay7
  exact col_tot_nat x 1 l
theorem tot2 : k0_pay25 (F := Ideal) x k0_pay7 (ix2 (0 : Fin 1) l) = Hist.colTot x 2 l := by
  unfold k0_pay25 k0_pay23 k0_pay7
  exact col_tot_nat x 2 l
theorem tot3 : k0_pay32 (F := Ideal) x k0_pay7 (ix2 (0 : Fin 1) l) = Hist.colTot x 3 l := by
  unfold k0_pay32 k0_pay31 k0_pay7
  exact col_tot_nat x 3 l
theorem tot4 : k0_pay37 (F := Ideal) x k0_pay7 (ix2 (0 : Fin 1) l) = Hist.colTot x 4 l := by
  unfold k0_pay37 k0_pay36 k0_pay7
  exact col_tot_nat x 4 l
theorem tot5 : k0_pay45 (F := Ideal) k0_pay7 (k0_pay43 x) (ix2 (0 : Fin 1) l) = Hist.colTot x 5 l := by
  unfold k0_pay45 k0_pay43 k0_pay7
  exact col_tot_nat x 5 l
theorem tot6 : k0_pay52 (F := Ideal) x k0_pay7 (ix2 (0 : Fin 1) l) = Hist.colTot x 6 l := by
  unfold k0_pay52 k0_pay51 k0_pay7
  exact col_tot_nat x 6 l
theorem tot7 : k0_pay57 (F := Ideal) x k0_pay7 (ix2 (0 : Fin 1) l) = Hist.colTot x 7 l := by
  unfold k0_pay57 k0_pay56 k0_pay7
  exact col_tot_nat x 7 l

theorem g10 : k0_pay12 (F := Ideal) x a (ix2 (0 : Fin 1) l) = Hist.colG1 x a 0 l := by
  unfold k0_pay12 k0_pay10 k0_pay7
  rw [pay5_eq, pay6_eq]
  exact col_g1_nat x a 0 l
theorem g11 : k0_pay18 (F := Ideal) x (k0_pay6 a) k0_pay7 (ix2 (0 : Fin 1) l) = Hist.colG1 x a 1 l := by
  rw [pay6_eq]
  unfold k0_pay18 k0_pay16 k0_pay7
  exact col_g1_nat x a 1 l
theorem g12 : k0_pay26 (F := Ideal) k0_pay7 (k0_pay24 x (k0_pay6 a)) (ix2 (0 : Fin 1) l) = Hist.colG1 x a 2 l := by
  rw [pay6_eq]
  unfold k0_pay26 k0_pay24 k0_pay23 k0_pay7
  exact col_g1_nat x a 2 l
theorem g13 : k0_pay33 (F := Ideal) x (k0_pay6 a) k0_pay7 (ix2 (0 : Fin 1) l) = Hist.colG1 x a 3 l := by
  rw [pay6_eq]
  unfold k0_pay33 k0_pay31 k0_pay7
  exact col_g1_nat x a 3 l
theorem g14 : k0_pay38 (F := Ideal) x (k0_pay6 a) k0_pay7 (ix2 (0 : Fin 1) l) = Hist.colG1 x a 4 l := by
  rw [pay6_eq]
  unfold k0_pay38 k0_pay36 k0_pay7
  exact col_g1_nat x a 4 l
theorem g15 : k0_pay46 (F := Ideal) k0_pay7 (k0_pay44 x (k0_pay6 a)) (ix2 (0 : Fin 1) l) = Hist.colG1 x a 5 l := by
  rw [pay6_eq]
  unfold k0_pay46 k0_pay44 k0_pay43 k0_pay7
  exact col_g1_nat x a 5 l
theorem g16 : k0_pay53 (F := Ideal) x (k0_pay6 a) k0_pay7 (ix2 (0 : Fin 1) l) = Hist.colG1 x a 6 l := by
  rw [pay6_eq]
  unfold k0_pay53 k0_pay51 k0_pay7
  exact col_g1_nat x a 6 l
theorem g17 : k0_pay58 (F := Ideal) x (k0_pay6 a) k0_pay7 (ix2 (0 : Fin 1) l) = Hist.colG1 x a 7 l := by
  rw [pay6_eq]
  unfold k0_pay58 k0_pay56 k0_pay7
  exact col_g1_nat x a 7 l
theorem gw : k0_pay63 (F := Ideal) (k0_pay6 a) k0_pay7 (ix2 (0 : Fin 1) l) = Hist.colW a l := by
  rw [pay6_eq]
  unfold k0_pay63 k0_pay7
  exact col_w a l

end Leaves

/-! ### The specification's increments, branch by branch -/

section SpecBranches
variable (x a : IVec S8192x128 32) (r : Fin 16) (l : Fin 128)

theorem dTot_lt (h : r.val < 8) : Hist.dTot x r l = Hist.colTot x r.val l := by
  unfold Hist.dTot; rw [if_pos h]
theorem dTot_eq (h : r.val = 8) : Hist.dTot x r l = ((8192 : ℝ) : EReal) - ∑ c : Fin 8, Hist.colTot x c.val l := by
  unfold Hist.dTot; rw [if_neg (by omega), if_pos h]
theorem dTot_gt (h : 8 < r.val) : Hist.dTot x r l = 0 := by
  unfold Hist.dTot; rw [if_neg (by omega), if_neg (by omega)]
theorem dG1_lt (h : r.val < 8) : Hist.dG1 x a r l = Hist.colG1 x a r.val l := by
  unfold Hist.dG1; rw [if_pos h]
theorem dG1_eq (h : r.val = 8) : Hist.dG1 x a r l = Hist.colW a l - ∑ c : Fin 8, Hist.colG1 x a c.val l := by
  unfold Hist.dG1; rw [if_neg (by omega), if_pos h]
theorem dG1_gt (h : 8 < r.val) : Hist.dG1 x a r l = 0 := by
  unfold Hist.dG1; rw [if_neg (by omega), if_neg (by omega)]

end SpecBranches

/-! ### The running sums over the eight classes -/

/-- The running sum the body carries through the eight classes, at one index: the nested sum, left to right. -/
theorem acc2_nest (v4 : IVec S8192x128 32) (v12 : FVec Ideal S8x8192 .bf16) (z t0 t2 t3 t6 : FVec Ideal S1x128 .f32)
    (m5 : FVec Ideal S8192x128 .bf16) (i : S1x128.Idx) :
    k0_pay61 v4 v12 (k0_pay49 v12 (k0_pay41 v4 v12 (k0_pay29 (k0_pay21 v4 v12 z t0) t2) t3) m5) t6 i
      = z i + t0 i + k0_pay17 v4 v12 i + t2 i + t3 i + k0_pay37 v4 v12 i + k0_pay45 v12 m5 i + t6 i + k0_pay57 v4 v12 i :=
  rfl

/-- The running total, `((((((((0 + t₀) + t₁) + t₂) + t₃) + t₄) + t₅) + t₆) + t₇)`, is the sum of the eight
    classes' counts. -/
theorem acc2 (x : IVec S8192x128 32) (l : Fin 128) :
    k0_pay61 (F := Ideal) x k0_pay7
        (k0_pay49 k0_pay7
          (k0_pay41 x k0_pay7 (k0_pay29 (k0_pay21 x k0_pay7 k0_pay8 (k0_pay11 x)) (k0_pay25 x k0_pay7)) (k0_pay32 x k0_pay7))
          (k0_pay43 x))
        (k0_pay52 x k0_pay7) (ix2 (0 : Fin 1) l)
      = ∑ c : Fin 8, Hist.colTot x c.val l := by
  rw [acc2_nest, tot0, tot1, tot2, tot3, tot4, tot5, tot6, tot7, Fin.sum_univ_eight]
  rw [show k0_pay8 (F := Ideal) (ix2 (0 : Fin 1) l) = 0 from Ideal.ofBits_zero_f32, zero_add]
  rfl

/-- The same nested sum for the group-1 counts. -/
theorem acc3_nest (v4 : IVec S8192x128 32) (v11 : FVec Ideal S8192x128 .bf16) (v12 : FVec Ideal S8x8192 .bf16)
    (z g0 g3 g6 : FVec Ideal S1x128 .f32) (m2 m5 : FVec Ideal S8192x128 .bf16) (i : S1x128.Idx) :
    k0_pay62 v4 v11 v12 (k0_pay50 v12 (k0_pay42 v4 v11 v12 (k0_pay30 v12 (k0_pay22 v4 v11 v12 z g0) m2) g3) m5) g6 i
      = z i + g0 i + k0_pay18 v4 v11 v12 i + k0_pay26 v12 m2 i + g3 i + k0_pay38 v4 v11 v12 i + k0_pay46 v12 m5 i + g6 i
        + k0_pay58 v4 v11 v12 i :=
  rfl

/-- The running group-1 count is the sum of the eight classes' group-1 counts. -/
theorem acc3 (x a : IVec S8192x128 32) (l : Fin 128) :
    k0_pay62 (F := Ideal) x (k0_pay6 a) k0_pay7
        (k0_pay50 k0_pay7
          (k0_pay42 x (k0_pay6 a) k0_pay7
            (k0_pay30 k0_pay7 (k0_pay22 x (k0_pay6 a) k0_pay7 k0_pay9 (k0_pay12 x a)) (k0_pay24 x (k0_pay6 a)))
            (k0_pay33 x (k0_pay6 a) k0_pay7))
          (k0_pay44 x (k0_pay6 a)))
        (k0_pay53 x (k0_pay6 a) k0_pay7) (ix2 (0 : Fin 1) l)
      = ∑ c : Fin 8, Hist.colG1 x a c.val l := by
  rw [acc3_nest, g10, g11, g12, g13, g14, g15, g16, g17, Fin.sum_univ_eight]
  rw [show k0_pay9 (F := Ideal) (ix2 (0 : Fin 1) l) = 0 from Ideal.ofBits_zero_f32, zero_add]
  rfl

end CaseA

open CaseA

/-! ### The two output blocks, row by row -/

/-- Walk down the pieces of the other rows. -/
local macro "walk" : tactic => `(tactic| repeat (refine (canon_skip _ _ _ _ (by decide)).trans ?_))

/-- What was loaded before a row's store is zero: the rows stored before are other rows, and under them lies the
    zeroed block. -/
local macro "loaded_zero" : tactic => `(tactic| (
  refine (readCov_row _ _ (by decide) _).trans ?_
  walk
  first | exact canon_zero2 _ _ | exact canon_zero3 _ _))

/-- A class row: down to the row's own store; its payload is what was loaded (zero) plus the class's count. -/
local macro "class_row" : tactic => `(tactic| (
  walk
  refine (canon_hit _ _ _ _ (by decide)).trans ?_
  refine (row_pay _ _ _).trans ?_
  refine add_eq_of ?_ ?_
  · loaded_zero))

/-- A padding row: no row store holds it, the zeroed block does. -/
local macro "pad_row" : tactic => `(tactic| (
  walk
  first | exact canon_zero2 _ _ | exact canon_zero3 _ _))

theorem outA2 (c : Dev nD) (i : grid0.Coords) (arg2 : Memref sig .tc .vmem S8192x128 .i32) (harg2 : arg2.IsWhole) (arg3 : Memref sig .tc .vmem S8192x128 .i32) (harg3 : arg3.IsWhole) (arg4 : Memref sig .tc .vmem S1x16x128 .f32) (harg4 : arg4.IsWhole) (arg5 : Memref sig .tc .vmem S1x16x128 .f32) (harg5 : arg5.IsWhole) (hc0 : cond0_0 i)
    (x0 x1 : Vec Ideal S8192x128 .i32) (r : Fin 16) (l : Fin 128) :
    out0_A_2 (F := Ideal) c i arg2 harg2 arg3 harg3 arg4 harg4 arg5 harg5 hc0 x0 x1 (ix3 (0 : Fin 1) r l) = Hist.dTot x0 r l := by
  unfold out0_A_2
  rw [View.read_writes_eq_canon _ _ _ (cover0_A_2 c i arg2 harg2 arg3 harg3 arg4 harg4 arg5 harg5 hc0 x0 x1)]
  unfold kernelRun0_A
  dsimp only
  sl_unfold_words
  have hX : View.readAt (Elt Ideal) arg2.view (Rect.unit (s := S8192x128) ![0, 0] S8192x128.size Facts₀.inb_S8192x128_S8192x128_0_0).toLoadRect (harg2.unread x0) = x0 := by
    simp only [View.readAt_eq_ld, harg2.read_unread, View.ld_unit_zero (S := S8192x128) hz]
  rw [hX, pay5_eq]
  fin_cases r
  · refine Eq.trans ?_ (dTot_lt x0 _ l (by decide)).symm
    class_row
    exact tot0 x0 l
  · refine Eq.trans ?_ (dTot_lt x0 _ l (by decide)).symm
    class_row
    exact tot1 x0 l
  · refine Eq.trans ?_ (dTot_lt x0 _ l (by decide)).symm
    class_row
    exact tot2 x0 l
  · refine Eq.trans ?_ (dTot_lt x0 _ l (by decide)).symm
    class_row
    exact tot3 x0 l
  · refine Eq.trans ?_ (dTot_lt x0 _ l (by decide)).symm
    class_row
    exact tot4 x0 l
  · refine Eq.trans ?_ (dTot_lt x0 _ l (by decide)).symm
    class_row
    exact tot5 x0 l
  · refine Eq.trans ?_ (dTot_lt x0 _ l (by decide)).symm
    class_row
    exact tot6 x0 l
  · refine Eq.trans ?_ (dTot_lt x0 _ l (by decide)).symm
    class_row
    exact tot7 x0 l
  · refine Eq.trans ?_ (dTot_eq x0 _ l (by decide)).symm
    class_row
    refine (subf_apply _ _ _).trans ?_
    rw [acc2, broadcast_apply]
    exact congrArg (· - _) Hist.Pay.c8192
  · refine Eq.trans ?_ (dTot_gt x0 _ l (by decide)).symm
    pad_row
  · refine Eq.trans ?_ (dTot_gt x0 _ l (by decide)).symm
    pad_row
  · refine Eq.trans ?_ (dTot_gt x0 _ l (by decide)).symm
    pad_row
  · refine Eq.trans ?_ (dTot_gt x0 _ l (by decide)).symm
    pad_row
  · refine Eq.trans ?_ (dTot_gt x0 _ l (by decide)).symm
    pad_row
  · refine Eq.trans ?_ (dTot_gt x0 _ l (by decide)).symm
    pad_row
  · refine Eq.trans ?_ (dTot_gt x0 _ l (by decide)).symm
    pad_row

theorem outA3 (c : Dev nD) (i : grid0.Coords) (arg2 : Memref sig .tc .vmem S8192x128 .i32) (harg2 : arg2.IsWhole) (arg3 : Memref sig .tc .vmem S8192x128 .i32) (harg3 : arg3.IsWhole) (arg4 : Memref sig .tc .vmem S1x16x128 .f32) (harg4 : arg4.IsWhole) (arg5 : Memref sig .tc .vmem S1x16x128 .f32) (harg5 : arg5.IsWhole) (hc0 : cond0_0 i)
    (x0 x1 : Vec Ideal S8192x128 .i32) (r : Fin 16) (l : Fin 128) :
    out0_A_3 (F := Ideal) c i arg2 harg2 arg3 harg3 arg4 harg4 arg5 harg5 hc0 x0 x1 (ix3 (0 : Fin 1) r l) = Hist.dG1 x0 x1 r l := by
  unfold out0_A_3
  rw [View.read_writes_eq_canon _ _ _ (cover0_A_3 c i arg2 harg2 arg3 harg3 arg4 harg4 arg5 harg5 hc0 x0 x1)]
  unfold kernelRun0_A
  dsimp only
  sl_unfold_words
  have hX : View.readAt (Elt Ideal) arg2.view (Rect.unit (s := S8192x128) ![0, 0] S8192x128.size Facts₀.inb_S8192x128_S8192x128_0_0).toLoadRect (harg2.unread x0) = x0 := by
    simp only [View.readAt_eq_ld, harg2.read_unread, View.ld_unit_zero (S := S8192x128) hz]
  have hX1 : View.readAt (Elt Ideal) arg3.view (Rect.unit (s := S8192x128) ![0, 0] S8192x128.size Facts₀.inb_S8192x128_S8192x128_0_0).toLoadRect (harg3.unread x1) = x1 := by
    simp only [View.readAt_eq_ld, harg3.read_unread, View.ld_unit_zero (S := S8192x128) hz]
  rw [hX, hX1, pay5_eq]
  fin_cases r
  · refine Eq.trans ?_ (dG1_lt x0 x1 _ l (by decide)).symm
    class_row
    exact g10 x0 x1 l
  · refine Eq.trans ?_ (dG1_lt x0 x1 _ l (by decide)).symm
    class_row
    exact g11 x0 x1 l
  · refine Eq.trans ?_ (dG1_lt x0 x1 _ l (by decide)).symm
    class_row
    exact g12 x0 x1 l
  · refine Eq.trans ?_ (dG1_lt x0 x1 _ l (by decide)).symm
    class_row
    exact g13 x0 x1 l
  · refine Eq.trans ?_ (dG1_lt x0 x1 _ l (by decide)).symm
    class_row
    exact g14 x0 x1 l
  · refine Eq.trans ?_ (dG1_lt x0 x1 _ l (by decide)).symm
    class_row
    exact g15 x0 x1 l
  · refine Eq.trans ?_ (dG1_lt x0 x1 _ l (by decide)).symm
    class_row
    exact g16 x0 x1 l
  · refine Eq.trans ?_ (dG1_lt x0 x1 _ l (by decide)).symm
    class_row
    exact g17 x0 x1 l
  · refine Eq.trans ?_ (dG1_eq x0 x1 _ l (by decide)).symm
    class_row
    refine (subf_apply _ _ _).trans ?_
    rw [acc3, gw]
  · refine Eq.trans ?_ (dG1_gt x0 x1 _ l (by decide)).symm
    pad_row
  · refine Eq.trans ?_ (dG1_gt x0 x1 _ l (by decide)).symm
    pad_row
  · refine Eq.trans ?_ (dG1_gt x0 x1 _ l (by decide)).symm
    pad_row
  · refine Eq.trans ?_ (dG1_gt x0 x1 _ l (by decide)).symm
    pad_row
  · refine Eq.trans ?_ (dG1_gt x0 x1 _ l (by decide)).symm
    pad_row
  · refine Eq.trans ?_ (dG1_gt x0 x1 _ l (by decide)).symm
    pad_row
  · refine Eq.trans ?_ (dG1_gt x0 x1 _ l (by decide)).symm
    pad_row

end Hist.Body

end
-- ==== Proof.BodyB.lean ====
/-
  What the kernel body leaves in the two output blocks at a grid point that continues a core's run (the
  accumulating case): over the contents `xo` the point before left, each of the rows 0..8 receives its increment,
  so row `r`, lane `l` ends at `xo + dTot` (resp. `xo + dG1`); the padding rows keep `xo`, their increment being zero.
-/
import proofs.«411819_j74990128988581_3_alg».proof.Proof.Gen.KernelIdeal.Frame
import proofs.«411819_j74990128988581_3_alg».proof.Proof.Spec
import Idealize.ShloMosaic.Lib.Pipeline.Value
import Idealize.ShloMosaic.Lib.ValueIdx
import Idealize.ShloMosaic.PureOps.Ideal.Laws
import Idealize.ShloMosaic.Lib.WritesUnit
import proofs.«411819_j74990128988581_3_alg».proof.Proof.Payload

set_option maxRecDepth 16384

noncomputable section

namespace Hist.Body

open Idealize.ShloMosaic Idealize.ShloMosaic.TcCoe Idealize.ShloMosaic.Tactic Idealize.ShloMosaic.ValueIdx
open Idealize.SL Idealize.SL.Sem
open Cert.KernelIdeal Cert.KernelIdeal.Gen

namespace CaseB

section Rows

variable {sig' : RefSig} {κ : Kind} {sp : Space} {Val : EltTy → Type}
variable (v : View sig' κ sp S1x16x128 .f32) (f : v.ty.Contents Val)

/-- A store of one row `k` does not touch lane `l` of another row `r`. -/
theorem read_row_of_ne (k : Nat) (inb : ∀ a, (![0, k, 0] : Fin 3 → Nat) a + (![1, 1, 128] : Fin 3 → Nat) a ≤ S1x16x128.size a)
    (w : (Rect.unit (s := S1x16x128) ![0, k, 0] ![1, 1, 128] inb).shape.Idx → Val .f32) (L : List (View.Piece Val S1x16x128 .f32))
    (r : Fin 16) (l : Fin 128) (h : r.val ≠ k) :
    v.read Val (v.writes Val f ((⟨Rect.unit (s := S1x16x128) ![0, k, 0] ![1, 1, 128] inb, w⟩ : View.Piece Val S1x16x128 .f32) :: L)) (ix3 (0 : Fin 1) r l)
      = v.read Val (v.writes Val f L) (ix3 (0 : Fin 1) r l) :=
  View.read_writes_cons_unit_of_not_mem v f inb w L _ rfl (1 : Fin 3) (by
    show r.val < k ∨ k + 1 ≤ r.val
    omega)

/-- A store of row `k`, read back at lane `l` of that row, gives the stored payload's lane `l`. -/
theorem read_row_self (k : Nat) (inb : ∀ a, (![0, k, 0] : Fin 3 → Nat) a + (![1, 1, 128] : Fin 3 → Nat) a ≤ S1x16x128.size a)
    (w : S1x1x128.Idx → Val .f32) (L : List (View.Piece Val S1x16x128 .f32))
    (r : Fin 16) (l : Fin 128) (h : r.val = k) :
    v.read Val (v.writes Val f ((⟨Rect.unit (s := S1x16x128) ![0, k, 0] ![1, 1, 128] inb, w⟩ : View.Piece Val S1x16x128 .f32) :: L)) (ix3 (0 : Fin 1) r l)
      = w (ix3 (0 : Fin 1) (0 : Fin 1) l) :=
  View.read_writes_cons_unit_of_mem v f inb w L _ (ix3 (0 : Fin 1) (0 : Fin 1) l) rfl (fun a => by
    match a with
    | ⟨0, _⟩ => rfl
    | ⟨1, _⟩ => show r.val = k + 0; omega
    | ⟨2, _⟩ => show l.val = 0 + l.val; omega)

/-- Nine stores, one per row 0..8 (the last one first), over contents `f`: lane `l` of row `r` reads the payload of
    row `r`'s store when `r ≤ 8`, and what `f` held when `r ≥ 9`.  Stated against a target `G` so that each row's payload
    is compared on its own. -/
theorem read_rows9 (inb0 inb1 inb2 inb3 inb4 inb5 inb6 inb7 inb8)
    (w0 w1 w2 w3 w4 w5 w6 w7 w8 : S1x1x128.Idx → Val .f32) (G : Fin 16 → Fin 128 → Val .f32)
    (h0 : ∀ l, w0 (ix3 (0 : Fin 1) (0 : Fin 1) l) = G 0 l) (h1 : ∀ l, w1 (ix3 (0 : Fin 1) (0 : Fin 1) l) = G 1 l)
    (h2 : ∀ l, w2 (ix3 (0 : Fin 1) (0 : Fin 1) l) = G 2 l) (h3 : ∀ l, w3 (ix3 (0 : Fin 1) (0 : Fin 1) l) = G 3 l)
    (h4 : ∀ l, w4 (ix3 (0 : Fin 1) (0 : Fin 1) l) = G 4 l) (h5 : ∀ l, w5 (ix3 (0 : Fin 1) (0 : Fin 1) l) = G 5 l)
    (h6 : ∀ l, w6 (ix3 (0 : Fin 1) (0 : Fin 1) l) = G 6 l) (h7 : ∀ l, w7 (ix3 (0 : Fin 1) (0 : Fin 1) l) = G 7 l)
    (h8 : ∀ l, w8 (ix3 (0 : Fin 1) (0 : Fin 1) l) = G 8 l)
    (hrest : ∀ (r : Fin 16) (l : Fin 128), 9 ≤ r.val → v.read Val f (ix3 (0 : Fin 1) r l) = G r l)
    (r : Fin 16) (l : Fin 128) :
    v.read Val (v.writes Val f
      [(⟨Rect.unit (s := S1x16x128) ![0, 8, 0] ![1, 1, 128] inb8, w8⟩ : View.Piece Val S1x16x128 .f32),
       ⟨Rect.unit (s := S1x16x128) ![0, 7, 0] ![1, 1, 128] inb7, w7⟩,
       ⟨Rect.unit (s := S1x16x128) ![0, 6, 0] ![1, 1, 128] inb6, w6⟩,
       ⟨Rect.unit (s := S1x16x128) ![0, 5, 0] ![1, 1, 128] inb5, w5⟩,
       ⟨Rect.unit (s := S1x16x128) ![0, 4, 0] ![1, 1, 128] inb4, w4⟩,
       ⟨Rect.unit (s := S1x16x128) ![0, 3, 0] ![1, 1, 128] inb3, w3⟩,
       ⟨Rect.unit (s := S1x16x128) ![0, 2, 0] ![1, 1, 128] inb2, w2⟩,
       ⟨Rect.unit (s := S1x16x128) ![0, 1, 0] ![1, 1, 128] inb1, w1⟩,
       ⟨Rect.unit (s := S1x16x128) ![0, 0, 0] ![1, 1, 128] inb0, w0⟩]) (ix3 (0 : Fin 1) r l) = G r l := by
  by_cases e8 : r.val = 8
  · obtain rfl : r = 8 := Fin.ext e8
    exact (read_row_self v f 8 inb8 w8 _ _ l rfl).trans (h8 l)
  refine (read_row_of_ne v f 8 inb8 w8 _ r l e8).trans ?_
  by_cases e7 : r.val = 7
  · obtain rfl : r = 7 := Fin.ext e7
    exact (read_row_self v f 7 inb7 w7 _ _ l rfl).trans (h7 l)
  refine (read_row_of_ne v f 7 inb7 w7 _ r l e7).trans ?_
  by_cases e6 : r.val = 6
  · obtain rfl : r = 6 := Fin.ext e6
    exact (read_row_self v f 6 inb6 w6 _ _ l rfl).trans (h6 l)
  refine (read_row_of_ne v f 6 inb6 w6 _ r l e6).trans ?_
  by_cases e5 : r.val = 5
  · obtain rfl : r = 5 := Fin.ext e5
    exact (read_row_self v f 5 inb5 w5 _ _ l rfl).trans (h5 l)
  refine (read_row_of_ne v f 5 inb5 w5 _ r l e5).trans ?_
  by_cases e4 : r.val = 4
  · obtain rfl : r = 4 := Fin.ext e4
    exact (read_row_self v f 4 inb4 w4 _ _ l rfl).trans (h4 l)
  refine (read_row_of_ne v f 4 inb4 w4 _ r l e4).trans ?_
  by_cases e3 : r.val = 3
  · obtain rfl : r = 3 := Fin.ext e3
    exact (read_row_self v f 3 inb3 w3 _ _ l rfl).trans (h3 l)
  refine (read_row_of_ne v f 3 inb3 w3 _ r l e3).trans ?_
  by_cases e2 : r.val = 2
  · obtain rfl : r = 2 := Fin.ext e2
    exact (read_row_self v f 2 inb2 w2 _ _ l rfl).trans (h2 l)
  refine (read_row_of_ne v f 2 inb2 w2 _ r l e2).trans ?_
  by_cases e1 : r.val = 1
  · obtain rfl : r = 1 := Fin.ext e1
    exact (read_row_self v f 1 inb1 w1 _ _ l rfl).trans (h1 l)
  refine (read_row_of_ne v f 1 inb1 w1 _ r l e1).trans ?_
  by_cases e0 : r.val = 0
  · obtain rfl : r = 0 := Fin.ext e0
    exact (read_row_self v f 0 inb0 w0 _ _ l rfl).trans (h0 l)
  refine (read_row_of_ne v f 0 inb0 w0 _ r l e0).trans ?_
  exact hrest r l (by omega)

end Rows

section Payloads

open Hist.Pay

theorem hz2 : (![0, 0] : Fin 2 → Nat) = fun _ => 0 := funext fun a => by fin_cases a <;> rfl

/-- An input block as loaded (the whole buffer, then the identity reshape) is the block itself. -/
theorem blkA (m : Memref sig .tc .vmem S8192x128 .i32) (hm : m.IsWhole) (x : Vec Ideal S8192x128 .i32)
    (inb : ∀ a, (![0, 0] : Fin 2 → Nat) a + S8192x128.size a ≤ S8192x128.size a) :
    shapeCast S8192x128 (View.readAt (Elt Ideal) m.view (Rect.unit (s := S8192x128) ![0, 0] S8192x128.size inb).toLoadRect (hm.unread x))
      shapeCasts_S8192x128_S8192x128 = x := by
  refine (shapeCast_self (s := S8192x128) _ _).trans ?_
  rw [View.readAt_eq_ld, hm.read_unread]
  exact View.ld_unit_zero (S := S8192x128) hz2 inb x

theorem blk (m : Memref sig .tc .vmem S8192x128 .i32) (hm : m.IsWhole) (x : Vec Ideal S8192x128 .i32)
    (inb : ∀ a, (![0, 0] : Fin 2 → Nat) a + S8192x128.size a ≤ S8192x128.size a) :
    k0_pay5 (F := Ideal) (View.readAt (Elt Ideal) m.view (Rect.unit (s := S8192x128) ![0, 0] S8192x128.size inb).toLoadRect (hm.unread x)) = x :=
  blkA m hm x inb

/-- Row `k` of the output block as loaded, at lane `l`: the running contents at (0, k, l). -/
theorem load_row (m : Memref sig .tc .vmem S1x16x128 .f32) (hm : m.IsWhole) (xo : Vec Ideal S1x16x128 .f32) (k : Nat)
    (inb : ∀ a, (![0, k, 0] : Fin 3 → Nat) a + (![1, 1, 128] : Fin 3 → Nat) a ≤ S1x16x128.size a)
    (r : Fin 16) (hr : r.val = k) (l : Fin 128) :
    View.readAt (Elt Ideal) m.view (Rect.unit (s := S1x16x128) ![0, k, 0] ![1, 1, 128] inb).toLoadRect (hm.unread xo)
        (ix3 (0 : Fin 1) (0 : Fin 1) l) = xo (ix3 (0 : Fin 1) r l) := by
  rw [View.readAt_eq_ld, hm.read_unread]
  show xo _ = xo _
  refine congrArg xo (funext fun a => Fin.ext ?_)
  match a with
  | ⟨0, _⟩ => rfl
  | ⟨1, _⟩ => show k + 1 * 0 = r.val; omega
  | ⟨2, _⟩ => show 0 + 1 * l.val = l.val; omega

/-- A row (1 × 1 × 128) viewed as 1 × 128, a 1 × 128 increment added, viewed back: lane by lane the sum. -/
theorem store_add (R : Vec Ideal S1x1x128 .f32) (t : FVec Ideal S1x128 .f32) (l : Fin 128) :
    (shapeCast S1x1x128 (addf (shapeCast S1x128 R shapeCasts_S1x1x128_S1x128) t) shapeCasts_S1x128_S1x1x128)
        (ix3 (0 : Fin 1) (0 : Fin 1) l) = R (ix3 (0 : Fin 1) (0 : Fin 1) l) + t (ix2 (0 : Fin 1) l) := by
  have e1 : (fun a : Fin 2 => (ix3 (0 : Fin 1) (0 : Fin 1) l) a.succ) = ix2 (0 : Fin 1) l := by
    funext a
    match a with
    | ⟨0, _⟩ => rfl
    | ⟨1, _⟩ => rfl
  have e2 : (Fin.cons ⟨0, Nat.one_pos⟩ (ix2 (0 : Fin 1) l) : S1x1x128.Idx) = ix3 (0 : Fin 1) (0 : Fin 1) l := by
    funext a
    match a with
    | ⟨0, _⟩ => rfl
    | ⟨1, _⟩ => rfl
    | ⟨2, _⟩ => rfl
  rw [shapeCast_addUnit_apply ![1, 128], e1, addf_apply, shapeCast_dropUnit_apply ![1, 128], e2]

/-- The zero splats the running sums start from. -/
theorem pay8_zero (j : S1x128.Idx) : k0_pay8 (F := Ideal) j = 0 := Ideal.ofBits_zero_f32
theorem pay9_zero (j : S1x128.Idx) : k0_pay9 (F := Ideal) j = 0 := Ideal.ofBits_zero_f32

/-- Eight increments added one after the other to a start vector, read at one lane. -/
theorem acc_chain (z a0 a1 a2 a3 a4 a5 a6 a7 : FVec Ideal S1x128 .f32) (j : S1x128.Idx) :
    addf (addf (addf (addf (addf (addf (addf (addf z a0) a1) a2) a3) a4) a5) a6) a7 j
      = z j + a0 j + a1 j + a2 j + a3 j + a4 j + a5 j + a6 j + a7 j := rfl

/-- A sum over the eight classes, spelt out from a zero start. -/
theorem sum8 (f : ℕ → EReal) : ∑ c : Fin 8, f c.val = 0 + f 0 + f 1 + f 2 + f 3 + f 4 + f 5 + f 6 + f 7 := by
  rw [Fin.sum_univ_eight, zero_add]
  rfl

/-- A difference of two vectors at one lane. -/
theorem sub_at (a b : FVec Ideal S1x128 .f32) (j : S1x128.Idx) : subf a b j = a j - b j := rfl

/-! ### The per-class totals -/

theorem t0 (v3 : Vec Ideal S8192x128 .i32) (l : Fin 128) :
    k0_pay11 (F := Ideal) v3 (ix2 (0 : Fin 1) l) = Hist.colTot (k0_pay5 v3) 0 l := by
  unfold k0_pay11 k0_pay10 k0_pay7; exact col_tot_nat _ 0 l
theorem t1 (v4 : IVec S8192x128 32) (l : Fin 128) :
    k0_pay17 (F := Ideal) v4 k0_pay7 (ix2 (0 : Fin 1) l) = Hist.colTot v4 1 l := by
  unfold k0_pay17 k0_pay16 k0_pay7; exact col_tot_nat v4 1 l
theorem t2 (v4 : IVec S8192x128 32) (l : Fin 128) :
    k0_pay25 (F := Ideal) v4 k0_pay7 (ix2 (0 : Fin 1) l) = Hist.colTot v4 2 l := by
  unfold k0_pay25 k0_pay23 k0_pay7; exact col_tot_nat v4 2 l
theorem t3 (v4 : IVec S8192x128 32) (l : Fin 128) :
    k0_pay32 (F := Ideal) v4 k0_pay7 (ix2 (0 : Fin 1) l) = Hist.colTot v4 3 l := by
  unfold k0_pay32 k0_pay31 k0_pay7; exact col_tot_nat v4 3 l
theorem t4 (v4 : IVec S8192x128 32) (l : Fin 128) :
    k0_pay37 (F := Ideal) v4 k0_pay7 (ix2 (0 : Fin 1) l) = Hist.colTot v4 4 l := by
  unfold k0_pay37 k0_pay36 k0_pay7; exact col_tot_nat v4 4 l
theorem t5 (v4 : IVec S8192x128 32) (l : Fin 128) :
    k0_pay45 (F := Ideal) k0_pay7 (k0_pay43 v4) (ix2 (0 : Fin 1) l) = Hist.colTot v4 5 l := by
  unfold k0_pay45 k0_pay43 k0_pay7; exact col_tot_nat v4 5 l
theorem t6 (v4 : IVec S8192x128 32) (l : Fin 128) :
    k0_pay52 (F := Ideal) v4 k0_pay7 (ix2 (0 : Fin 1) l) = Hist.colTot v4 6 l := by
  unfold k0_pay52 k0_pay51 k0_pay7; exact col_tot_nat v4 6 l
theorem t7 (v4 : IVec S8192x128 32) (l : Fin 128) :
    k0_pay57 (F := Ideal) v4 k0_pay7 (ix2 (0 : Fin 1) l) = Hist.colTot v4 7 l := by
  unfold k0_pay57 k0_pay56 k0_pay7; exact col_tot_nat v4 7 l

/-! ### What each row's store writes in output 2, lane by lane -/

theorem row2_0 (v3 : Vec Ideal S8192x128 .i32) (R : Vec Ideal S1x1x128 .f32) (l : Fin 128) :
    k0_pay13 (F := Ideal) v3 R (ix3 (0 : Fin 1) (0 : Fin 1) l) = R (ix3 (0 : Fin 1) (0 : Fin 1) l) + Hist.colTot (k0_pay5 v3) 0 l :=
  (store_add R _ l).trans (congrArg (R (ix3 (0 : Fin 1) (0 : Fin 1) l) + ·) (t0 v3 l))
theorem row2_1 (v4 : IVec S8192x128 32) (R : Vec Ideal S1x1x128 .f32) (l : Fin 128) :
    k0_pay19 (F := Ideal) v4 k0_pay7 R (ix3 (0 : Fin 1) (0 : Fin 1) l) = R (ix3 (0 : Fin 1) (0 : Fin 1) l) + Hist.colTot v4 1 l :=
  (store_add R _ l).trans (congrArg (R (ix3 (0 : Fin 1) (0 : Fin 1) l) + ·) (t1 v4 l))
theorem row2_2 (v4 : IVec S8192x128 32) (R : Vec Ideal S1x1x128 .f32) (l : Fin 128) :
    k0_pay27 (F := Ideal) (k0_pay25 v4 k0_pay7) R (ix3 (0 : Fin 1) (0 : Fin 1) l) = R (ix3 (0 : Fin 1) (0 : Fin 1) l) + Hist.colTot v4 2 l :=
  (store_add R _ l).trans (congrArg (R (ix3 (0 : Fin 1) (0 : Fin 1) l) + ·) (t2 v4 l))
theorem row2_3 (v4 : IVec S8192x128 32) (R : Vec Ideal S1x1x128 .f32) (l : Fin 128) :
    k0_pay34 (F := Ideal) v4 k0_pay7 R (ix3 (0 : Fin 1) (0 : Fin 1) l) = R (ix3 (0 : Fin 1) (0 : Fin 1) l) + Hist.colTot v4 3 l :=
  (store_add R _ l).trans (congrArg (R (ix3 (0 : Fin 1) (0 : Fin 1) l) + ·) (t3 v4 l))
theorem row2_4 (v4 : IVec S8192x128 32) (R : Vec Ideal S1x1x128 .f32) (l : Fin 128) :
    k0_pay39 (F := Ideal) v4 k0_pay7 R (ix3 (0 : Fin 1) (0 : Fin 1) l) = R (ix3 (0 : Fin 1) (0 : Fin 1) l) + Hist.colTot v4 4 l :=
  (store_add R _ l).trans (congrArg (R (ix3 (0 : Fin 1) (0 : Fin 1) l) + ·) (t4 v4 l))
theorem row2_5 (v4 : IVec S8192x128 32) (R : Vec Ideal S1x1x128 .f32) (l : Fin 128) :
    k0_pay47 (F := Ideal) k0_pay7 (k0_pay43 v4) R (ix3 (0 : Fin 1) (0 : Fin 1) l) = R (ix3 (0 : Fin 1) (0 : Fin 1) l) + Hist.colTot v4 5 l :=
  (store_add R _ l).trans (congrArg (R (ix3 (0 : Fin 1) (0 : Fin 1) l) + ·) (t5 v4 l))
theorem row2_6 (v4 : IVec S8192x128 32) (R : Vec Ideal S1x1x128 .f32) (l : Fin 128) :
    k0_pay54 (F := Ideal) v4 k0_pay7 R (ix3 (0 : Fin 1) (0 : Fin 1) l) = R (ix3 (0 : Fin 1) (0 : Fin 1) l) + Hist.colTot v4 6 l :=
  (store_add R _ l).trans (congrArg (R (ix3 (0 : Fin 1) (0 : Fin 1) l) + ·) (t6 v4 l))
theorem row2_7 (v4 : IVec S8192x128 32) (R : Vec Ideal S1x1x128 .f32) (l : Fin 128) :
    k0_pay59 (F := Ideal) v4 k0_pay7 R (ix3 (0 : Fin 1) (0 : Fin 1) l) = R (ix3 (0 : Fin 1) (0 : Fin 1) l) + Hist.colTot v4 7 l :=
  (store_add R _ l).trans (congrArg (R (ix3 (0 : Fin 1) (0 : Fin 1) l) + ·) (t7 v4 l))

/-- The running sum of the eight class totals, nested as the body adds them, is their sum. -/
theorem acc2 (v3 : Vec Ideal S8192x128 .i32) (l : Fin 128) :
    k0_pay61 (F := Ideal) (k0_pay5 v3) k0_pay7
        (k0_pay49 k0_pay7
          (k0_pay41 (k0_pay5 v3) k0_pay7
            (k0_pay29 (k0_pay21 (k0_pay5 v3) k0_pay7 k0_pay8 (k0_pay11 v3)) (k0_pay25 (k0_pay5 v3) k0_pay7))
            (k0_pay32 (k0_pay5 v3) k0_pay7))
          (k0_pay43 (k0_pay5 v3)))
        (k0_pay52 (k0_pay5 v3) k0_pay7) (ix2 (0 : Fin 1) l)
      = ∑ c : Fin 8, Hist.colTot (k0_pay5 v3) c.val l := by
  refine (acc_chain k0_pay8 (k0_pay11 v3) (k0_pay17 (k0_pay5 v3) k0_pay7) (k0_pay25 (k0_pay5 v3) k0_pay7)
    (k0_pay32 (k0_pay5 v3) k0_pay7) (k0_pay37 (k0_pay5 v3) k0_pay7) (k0_pay45 k0_pay7 (k0_pay43 (k0_pay5 v3)))
    (k0_pay52 (k0_pay5 v3) k0_pay7) (k0_pay57 (k0_pay5 v3) k0_pay7) (ix2 (0 : Fin 1) l)).trans ?_
  rw [pay8_zero, t0, t1, t2, t3, t4, t5, t6, t7]
  exact (sum8 fun c => Hist.colTot (k0_pay5 v3) c l).symm

/-- Row 8's store in output 2: the loaded row plus 8192 minus the eight class totals. -/
theorem row2_8 (v3 : Vec Ideal S8192x128 .i32) (R : Vec Ideal S1x1x128 .f32) (l : Fin 128) :
    k0_pay1 (F := Ideal)
        (k0_pay61 (k0_pay5 v3) k0_pay7
          (k0_pay49 k0_pay7
            (k0_pay41 (k0_pay5 v3) k0_pay7
              (k0_pay29 (k0_pay21 (k0_pay5 v3) k0_pay7 k0_pay8 (k0_pay11 v3)) (k0_pay25 (k0_pay5 v3) k0_pay7))
              (k0_pay32 (k0_pay5 v3) k0_pay7))
            (k0_pay43 (k0_pay5 v3)))
          (k0_pay52 (k0_pay5 v3) k0_pay7))
        (FloatOps.ofBits FTy.f32 1174405120#32) R (ix3 (0 : Fin 1) (0 : Fin 1) l)
      = R (ix3 (0 : Fin 1) (0 : Fin 1) l) + (((8192 : ℝ) : EReal) - ∑ c : Fin 8, Hist.colTot (k0_pay5 v3) c.val l) := by
  refine (store_add R _ l).trans (congrArg (R (ix3 (0 : Fin 1) (0 : Fin 1) l) + ·) ?_)
  rw [sub_at, broadcast_apply, acc2]
  exact congrArg (· - _) c8192

/-! ### The per-class group-1 counts -/

theorem g0 (v3 v5 : Vec Ideal S8192x128 .i32) (l : Fin 128) :
    k0_pay12 (F := Ideal) v3 v5 (ix2 (0 : Fin 1) l) = Hist.colG1 (k0_pay5 v3) (k0_pay5 v5) 0 l := by
  unfold k0_pay12 k0_pay10 k0_pay6 k0_pay7; exact col_g1_nat _ _ 0 l
theorem g1 (v4 : IVec S8192x128 32) (v5 : Vec Ideal S8192x128 .i32) (l : Fin 128) :
    k0_pay18 (F := Ideal) v4 (k0_pay6 v5) k0_pay7 (ix2 (0 : Fin 1) l) = Hist.colG1 v4 (k0_pay5 v5) 1 l := by
  unfold k0_pay18 k0_pay16 k0_pay6 k0_pay7; exact col_g1_nat v4 _ 1 l
theorem g2 (v4 : IVec S8192x128 32) (v5 : Vec Ideal S8192x128 .i32) (l : Fin 128) :
    k0_pay26 (F := Ideal) k0_pay7 (k0_pay24 v4 (k0_pay6 v5)) (ix2 (0 : Fin 1) l) = Hist.colG1 v4 (k0_pay5 v5) 2 l := by
  unfold k0_pay26 k0_pay24 k0_pay23 k0_pay6 k0_pay7; exact col_g1_nat v4 _ 2 l
theorem g3 (v4 : IVec S8192x128 32) (v5 : Vec Ideal S8192x128 .i32) (l : Fin 128) :
    k0_pay33 (F := Ideal) v4 (k0_pay6 v5) k0_pay7 (ix2 (0 : Fin 1) l) = Hist.colG1 v4 (k0_pay5 v5) 3 l := by
  unfold k0_pay33 k0_pay31 k0_pay6 k0_pay7; exact col_g1_nat v4 _ 3 l
theorem g4 (v4 : IVec S8192x128 32) (v5 : Vec Ideal S8192x128 .i32) (l : Fin 128) :
    k0_pay38 (F := Ideal) v4 (k0_pay6 v5) k0_pay7 (ix2 (0 : Fin 1) l) = Hist.colG1 v4 (k0_pay5 v5) 4 l := by
  unfold k0_pay38 k0_pay36 k0_pay6 k0_pay7; exact col_g1_nat v4 _ 4 l
theorem g5 (v4 : IVec S8192x128 32) (v5 : Vec Ideal S8192x128 .i32) (l : Fin 128) :
    k0_pay46 (F := Ideal) k0_pay7 (k0_pay44 v4 (k0_pay6 v5)) (ix2 (0 : Fin 1) l) = Hist.colG1 v4 (k0_pay5 v5) 5 l := by
  unfold k0_pay46 k0_pay44 k0_pay43 k0_pay6 k0_pay7; exact col_g1_nat v4 _ 5 l
theorem g6 (v4 : IVec S8192x128 32) (v5 : Vec Ideal S8192x128 .i32) (l : Fin 128) :
    k0_pay53 (F := Ideal) v4 (k0_pay6 v5) k0_pay7 (ix2 (0 : Fin 1) l) = Hist.colG1 v4 (k0_pay5 v5) 6 l := by
  unfold k0_pay53 k0_pay51 k0_pay6 k0_pay7; exact col_g1_nat v4 _ 6 l
theorem g7 (v4 : IVec S8192x128 32) (v5 : Vec Ideal S8192x128 .i32) (l : Fin 128) :
    k0_pay58 (F := Ideal) v4 (k0_pay6 v5) k0_pay7 (ix2 (0 : Fin 1) l) = Hist.colG1 v4 (k0_pay5 v5) 7 l := by
  unfold k0_pay58 k0_pay56 k0_pay6 k0_pay7; exact col_g1_nat v4 _ 7 l
theorem gw (v5 : Vec Ideal S8192x128 .i32) (l : Fin 128) :
    k0_pay63 (F := Ideal) (k0_pay6 v5) k0_pay7 (ix2 (0 : Fin 1) l) = Hist.colW (k0_pay5 v5) l := by
  unfold k0_pay63 k0_pay6 k0_pay7; exact col_w _ l

/-! ### What each row's store writes in output 3, lane by lane -/

theorem row3_0 (v3 v5 : Vec Ideal S8192x128 .i32) (R : Vec Ideal S1x1x128 .f32) (l : Fin 128) :
    k0_pay15 (F := Ideal) (k0_pay14 v3 v5 R) (ix3 (0 : Fin 1) (0 : Fin 1) l) = R (ix3 (0 : Fin 1) (0 : Fin 1) l) + Hist.colG1 (k0_pay5 v3) (k0_pay5 v5) 0 l :=
  (store_add R _ l).trans (congrArg (R (ix3 (0 : Fin 1) (0 : Fin 1) l) + ·) (g0 v3 v5 l))
theorem row3_1 (v4 : IVec S8192x128 32) (v5 : Vec Ideal S8192x128 .i32) (R : Vec Ideal S1x1x128 .f32) (l : Fin 128) :
    k0_pay20 (F := Ideal) v4 (k0_pay6 v5) k0_pay7 R (ix3 (0 : Fin 1) (0 : Fin 1) l) = R (ix3 (0 : Fin 1) (0 : Fin 1) l) + Hist.colG1 v4 (k0_pay5 v5) 1 l :=
  (store_add R _ l).trans (congrArg (R (ix3 (0 : Fin 1) (0 : Fin 1) l) + ·) (g1 v4 v5 l))
theorem row3_2 (v4 : IVec S8192x128 32) (v5 : Vec Ideal S8192x128 .i32) (R : Vec Ideal S1x1x128 .f32) (l : Fin 128) :
    k0_pay28 (F := Ideal) k0_pay7 (k0_pay24 v4 (k0_pay6 v5)) R (ix3 (0 : Fin 1) (0 : Fin 1) l) = R (ix3 (0 : Fin 1) (0 : Fin 1) l) + Hist.colG1 v4 (k0_pay5 v5) 2 l :=
  (store_add R _ l).trans (congrArg (R (ix3 (0 : Fin 1) (0 : Fin 1) l) + ·) (g2 v4 v5 l))
theorem row3_3 (v4 : IVec S8192x128 32) (v5 : Vec Ideal S8192x128 .i32) (R : Vec Ideal S1x1x128 .f32) (l : Fin 128) :
    k0_pay35 (F := Ideal) (k0_pay33 v4 (k0_pay6 v5) k0_pay7) R (ix3 (0 : Fin 1) (0 : Fin 1) l) = R (ix3 (0 : Fin 1) (0 : Fin 1) l) + Hist.colG1 v4 (k0_pay5 v5) 3 l :=
  (store_add R _ l).trans (congrArg (R (ix3 (0 : Fin 1) (0 : Fin 1) l) + ·) (g3 v4 v5 l))
theorem row3_4 (v4 : IVec S8192x128 32) (v5 : Vec Ideal S8192x128 .i32) (R : Vec Ideal S1x1x128 .f32) (l : Fin 128) :
    k0_pay40 (F := Ideal) v4 (k0_pay6 v5) k0_pay7 R (ix3 (0 : Fin 1) (0 : Fin 1) l) = R (ix3 (0 : Fin 1) (0 : Fin 1) l) + Hist.colG1 v4 (k0_pay5 v5) 4 l :=
  (store_add R _ l).trans (congrArg (R (ix3 (0 : Fin 1) (0 : Fin 1) l) + ·) (g4 v4 v5 l))
theorem row3_5 (v4 : IVec S8192x128 32) (v5 : Vec Ideal S8192x128 .i32) (R : Vec Ideal S1x1x128 .f32) (l : Fin 128) :
    k0_pay48 (F := Ideal) k0_pay7 (k0_pay44 v4 (k0_pay6 v5)) R (ix3 (0 : Fin 1) (0 : Fin 1) l) = R (ix3 (0 : Fin 1) (0 : Fin 1) l) + Hist.colG1 v4 (k0_pay5 v5) 5 l :=
  (store_add R _ l).trans (congrArg (R (ix3 (0 : Fin 1) (0 : Fin 1) l) + ·) (g5 v4 v5 l))
theorem row3_6 (v4 : IVec S8192x128 32) (v5 : Vec Ideal S8192x128 .i32) (R : Vec Ideal S1x1x128 .f32) (l : Fin 128) :
    k0_pay55 (F := Ideal) (k0_pay53 v4 (k0_pay6 v5) k0_pay7) R (ix3 (0 : Fin 1) (0 : Fin 1) l) = R (ix3 (0 : Fin 1) (0 : Fin 1) l) + Hist.colG1 v4 (k0_pay5 v5) 6 l :=
  (store_add R _ l).trans (congrArg (R (ix3 (0 : Fin 1) (0 : Fin 1) l) + ·) (g6 v4 v5 l))
theorem row3_7 (v4 : IVec S8192x128 32) (v5 : Vec Ideal S8192x128 .i32) (R : Vec Ideal S1x1x128 .f32) (l : Fin 128) :
    k0_pay60 (F := Ideal) v4 (k0_pay6 v5) k0_pay7 R (ix3 (0 : Fin 1) (0 : Fin 1) l) = R (ix3 (0 : Fin 1) (0 : Fin 1) l) + Hist.colG1 v4 (k0_pay5 v5) 7 l :=
  (store_add R _ l).trans (congrArg (R (ix3 (0 : Fin 1) (0 : Fin 1) l) + ·) (g7 v4 v5 l))

/-- The running sum of the eight group-1 counts, nested as the body adds them, is their sum. -/
theorem acc3 (v3 v5 : Vec Ideal S8192x128 .i32) (l : Fin 128) :
    ((k0_pay62 (k0_pay5 v3) (k0_pay6 v5) k0_pay7
          (k0_pay50 k0_pay7
            (k0_pay42 (k0_pay5 v3) (k0_pay6 v5) k0_pay7
              (k0_pay30 k0_pay7 (k0_pay22 (k0_pay5 v3) (k0_pay6 v5) k0_pay7 k0_pay9 (k0_pay12 v3 v5)) (k0_pay24 (k0_pay5 v3) (k0_pay6 v5)))
              (k0_pay33 (k0_pay5 v3) (k0_pay6 v5) k0_pay7))
            (k0_pay44 (k0_pay5 v3) (k0_pay6 v5)))
          (k0_pay53 (k0_pay5 v3) (k0_pay6 v5) k0_pay7)) : FVec Ideal S1x128 .f32) (ix2 (0 : Fin 1) l)
      = ∑ c : Fin 8, Hist.colG1 (k0_pay5 v3) (k0_pay5 v5) c.val l := by
  refine (acc_chain k0_pay9 (k0_pay12 v3 v5) (k0_pay18 (k0_pay5 v3) (k0_pay6 v5) k0_pay7)
    (k0_pay26 k0_pay7 (k0_pay24 (k0_pay5 v3) (k0_pay6 v5))) (k0_pay33 (k0_pay5 v3) (k0_pay6 v5) k0_pay7)
    (k0_pay38 (k0_pay5 v3) (k0_pay6 v5) k0_pay7) (k0_pay46 k0_pay7 (k0_pay44 (k0_pay5 v3) (k0_pay6 v5)))
    (k0_pay53 (k0_pay5 v3) (k0_pay6 v5) k0_pay7) (k0_pay58 (k0_pay5 v3) (k0_pay6 v5) k0_pay7) (ix2 (0 : Fin 1) l)).trans ?_
  rw [pay9_zero, g0, g1, g2, g3, g4, g5, g6, g7]
  exact (sum8 fun c => Hist.colG1 (k0_pay5 v3) (k0_pay5 v5) c l).symm

/-- Row 8's store in output 3: the loaded row plus the group-1 rows' count minus the eight class counts. -/
theorem row3_8 (v3 v5 : Vec Ideal S8192x128 .i32) (R : Vec Ideal S1x1x128 .f32) (l : Fin 128) :
    k0_pay2 (F := Ideal)
        (k0_pay62 (k0_pay5 v3) (k0_pay6 v5) k0_pay7
          (k0_pay50 k0_pay7
            (k0_pay42 (k0_pay5 v3) (k0_pay6 v5) k0_pay7
              (k0_pay30 k0_pay7 (k0_pay22 (k0_pay5 v3) (k0_pay6 v5) k0_pay7 k0_pay9 (k0_pay12 v3 v5)) (k0_pay24 (k0_pay5 v3) (k0_pay6 v5)))
              (k0_pay33 (k0_pay5 v3) (k0_pay6 v5) k0_pay7))
            (k0_pay44 (k0_pay5 v3) (k0_pay6 v5)))
          (k0_pay53 (k0_pay5 v3) (k0_pay6 v5) k0_pay7))
        (k0_pay63 (k0_pay6 v5) k0_pay7) R (ix3 (0 : Fin 1) (0 : Fin 1) l)
      = R (ix3 (0 : Fin 1) (0 : Fin 1) l) + (Hist.colW (k0_pay5 v5) l - ∑ c : Fin 8, Hist.colG1 (k0_pay5 v3) (k0_pay5 v5) c.val l) := by
  refine (store_add R _ l).trans (congrArg (R (ix3 (0 : Fin 1) (0 : Fin 1) l) + ·) ?_)
  rw [sub_at, gw, acc3]

end Payloads

section Assemble

open Hist.Pay

/-! ### The specification's increments at a given row -/

theorem dTot_class (x : SB.Idx → BitVec 32) (r : Fin 16) (l : Fin 128) (h : r.val < 8) :
    Hist.dTot x r l = Hist.colTot x r.val l := if_pos h
theorem dTot_eight (x : SB.Idx → BitVec 32) (r : Fin 16) (l : Fin 128) (h : r.val = 8) :
    Hist.dTot x r l = ((8192 : ℝ) : EReal) - ∑ c : Fin 8, Hist.colTot x c.val l := by
  unfold Hist.dTot
  rw [if_neg (by omega), if_pos h]
theorem dTot_pad (x : SB.Idx → BitVec 32) (r : Fin 16) (l : Fin 128) (h : 9 ≤ r.val) : Hist.dTot x r l = 0 := by
  unfold Hist.dTot
  rw [if_neg (by omega), if_neg (by omega)]

theorem dG1_class (x a : SB.Idx → BitVec 32) (r : Fin 16) (l : Fin 128) (h : r.val < 8) :
    Hist.dG1 x a r l = Hist.colG1 x a r.val l := if_pos h
theorem dG1_eight (x a : SB.Idx → BitVec 32) (r : Fin 16) (l : Fin 128) (h : r.val = 8) :
    Hist.dG1 x a r l = Hist.colW a l - ∑ c : Fin 8, Hist.colG1 x a c.val l := by
  unfold Hist.dG1
  rw [if_neg (by omega), if_pos h]
theorem dG1_pad (x a : SB.Idx → BitVec 32) (r : Fin 16) (l : Fin 128) (h : 9 ≤ r.val) : Hist.dG1 x a r l = 0 := by
  unfold Hist.dG1
  rw [if_neg (by omega), if_neg (by omega)]

variable (m2 : Memref sig .tc .vmem S8192x128 .i32) (hm2 : m2.IsWhole) (m3 : Memref sig .tc .vmem S8192x128 .i32) (hm3 : m3.IsWhole)
  (mo : Memref sig .tc .vmem S1x16x128 .f32) (hmo : mo.IsWhole)
  (x0 x1 : Vec Ideal S8192x128 .i32) (xo : Vec Ideal S1x16x128 .f32)
  (inb2 inb3 : ∀ a, (![0, 0] : Fin 2 → Nat) a + S8192x128.size a ≤ S8192x128.size a)

/-- A class row of output 2: the loaded row plus the class total is the running contents plus the increment. -/
theorem fin2 (k : Nat) (inbo : ∀ a, (![0, k, 0] : Fin 3 → Nat) a + (![1, 1, 128] : Fin 3 → Nat) a ≤ S1x16x128.size a)
    (r : Fin 16) (hr : r.val = k) (h8 : r.val < 8) (l : Fin 128) :
    View.readAt (Elt Ideal) mo.view (Rect.unit (s := S1x16x128) ![0, k, 0] ![1, 1, 128] inbo).toLoadRect (hmo.unread xo) (ix3 (0 : Fin 1) (0 : Fin 1) l)
        + Hist.colTot (k0_pay5 (F := Ideal) (View.readAt (Elt Ideal) m2.view (Rect.unit (s := S8192x128) ![0, 0] S8192x128.size inb2).toLoadRect (hm2.unread x0))) k l
      = xo (ix3 (0 : Fin 1) r l) + Hist.dTot x0 r l := by
  rw [load_row mo hmo xo k inbo r hr l, blk, dTot_class x0 r l h8, hr]

/-- Row 8 of output 2. -/
theorem fin2_8 (inbo : ∀ a, (![0, 8, 0] : Fin 3 → Nat) a + (![1, 1, 128] : Fin 3 → Nat) a ≤ S1x16x128.size a)
    (r : Fin 16) (hr : r.val = 8) (l : Fin 128) :
    View.readAt (Elt Ideal) mo.view (Rect.unit (s := S1x16x128) ![0, 8, 0] ![1, 1, 128] inbo).toLoadRect (hmo.unread xo) (ix3 (0 : Fin 1) (0 : Fin 1) l)
        + (((8192 : ℝ) : EReal) - ∑ c : Fin 8, Hist.colTot (k0_pay5 (F := Ideal) (View.readAt (Elt Ideal) m2.view (Rect.unit (s := S8192x128) ![0, 0] S8192x128.size inb2).toLoadRect (hm2.unread x0))) c.val l)
      = xo (ix3 (0 : Fin 1) r l) + Hist.dTot x0 r l := by
  rw [load_row mo hmo xo 8 inbo r hr l, blk, dTot_eight x0 r l hr]

/-- A class row of output 3. -/
theorem fin3 (k : Nat) (inbo : ∀ a, (![0, k, 0] : Fin 3 → Nat) a + (![1, 1, 128] : Fin 3 → Nat) a ≤ S1x16x128.size a)
    (r : Fin 16) (hr : r.val = k) (h8 : r.val < 8) (l : Fin 128) :
    View.readAt (Elt Ideal) mo.view (Rect.unit (s := S1x16x128) ![0, k, 0] ![1, 1, 128] inbo).toLoadRect (hmo.unread xo) (ix3 (0 : Fin 1) (0 : Fin 1) l)
        + Hist.colG1 (k0_pay5 (F := Ideal) (View.readAt (Elt Ideal) m2.view (Rect.unit (s := S8192x128) ![0, 0] S8192x128.size inb2).toLoadRect (hm2.unread x0)))
            (k0_pay5 (F := Ideal) (View.readAt (Elt Ideal) m3.view (Rect.unit (s := S8192x128) ![0, 0] S8192x128.size inb3).toLoadRect (hm3.unread x1))) k l
      = xo (ix3 (0 : Fin 1) r l) + Hist.dG1 x0 x1 r l := by
  rw [load_row mo hmo xo k inbo r hr l, blk, blk, dG1_class x0 x1 r l h8, hr]

/-- Row 8 of output 3. -/
theorem fin3_8 (inbo : ∀ a, (![0, 8, 0] : Fin 3 → Nat) a + (![1, 1, 128] : Fin 3 → Nat) a ≤ S1x16x128.size a)
    (r : Fin 16) (hr : r.val = 8) (l : Fin 128) :
    View.readAt (Elt Ideal) mo.view (Rect.unit (s := S1x16x128) ![0, 8, 0] ![1, 1, 128] inbo).toLoadRect (hmo.unread xo) (ix3 (0 : Fin 1) (0 : Fin 1) l)
        + (Hist.colW (k0_pay5 (F := Ideal) (View.readAt (Elt Ideal) m3.view (Rect.unit (s := S8192x128) ![0, 0] S8192x128.size inb3).toLoadRect (hm3.unread x1))) l
            - ∑ c : Fin 8, Hist.colG1 (k0_pay5 (F := Ideal) (View.readAt (Elt Ideal) m2.view (Rect.unit (s := S8192x128) ![0, 0] S8192x128.size inb2).toLoadRect (hm2.unread x0)))
                (k0_pay5 (F := Ideal) (View.readAt (Elt Ideal) m3.view (Rect.unit (s := S8192x128) ![0, 0] S8192x128.size inb3).toLoadRect (hm3.unread x1))) c.val l)
      = xo (ix3 (0 : Fin 1) r l) + Hist.dG1 x0 x1 r l := by
  rw [load_row mo hmo xo 8 inbo r hr l, blk, blk, dG1_eight x0 x1 r l hr]

end Assemble

end CaseB

open CaseB

theorem outB2 (c : Dev nD) (i : grid0.Coords) (arg2 : Memref sig .tc .vmem S8192x128 .i32) (harg2 : arg2.IsWhole) (arg3 : Memref sig .tc .vmem S8192x128 .i32) (harg3 : arg3.IsWhole) (arg4 : Memref sig .tc .vmem S1x16x128 .f32) (harg4 : arg4.IsWhole) (arg5 : Memref sig .tc .vmem S1x16x128 .f32) (harg5 : arg5.IsWhole) (hc0 : ¬cond0_0 i)
    (x0 x1 : Vec Ideal S8192x128 .i32) (xo2 xo3 : Vec Ideal S1x16x128 .f32) (r : Fin 16) (l : Fin 128) :
    out0_B_2 (F := Ideal) c i arg2 harg2 arg3 harg3 arg4 harg4 arg5 harg5 hc0 x0 x1 xo2 xo3 (ix3 (0 : Fin 1) r l)
      = xo2 (ix3 (0 : Fin 1) r l) + Hist.dTot x0 r l := by
  -- the block after the body: the nine row stores over the running contents, read at row r, lane l
  unfold out0_B_2
  unfold kernelRun0_B
  dsimp only
  sl_unfold_words
  refine read_rows9 (Val := Elt Ideal) arg4.view (harg4.unread xo2) _ _ _ _ _ _ _ _ _ _ _ _ _ _ _ _ _ _
    (fun r l => xo2 (ix3 (0 : Fin 1) r l) + Hist.dTot x0 r l) ?_ ?_ ?_ ?_ ?_ ?_ ?_ ?_ ?_ ?_ r l
  · intro l; exact (row2_0 _ _ l).trans (fin2 arg2 harg2 arg4 harg4 x0 xo2 _ 0 _ 0 rfl (by decide) l)
  · intro l; exact (row2_1 _ _ l).trans (fin2 arg2 harg2 arg4 harg4 x0 xo2 _ 1 _ 1 rfl (by decide) l)
  · intro l; exact (row2_2 _ _ l).trans (fin2 arg2 harg2 arg4 harg4 x0 xo2 _ 2 _ 2 rfl (by decide) l)
  · intro l; exact (row2_3 _ _ l).trans (fin2 arg2 harg2 arg4 harg4 x0 xo2 _ 3 _ 3 rfl (by decide) l)
  · intro l; exact (row2_4 _ _ l).trans (fin2 arg2 harg2 arg4 harg4 x0 xo2 _ 4 _ 4 rfl (by decide) l)
  · intro l; exact (row2_5 _ _ l).trans (fin2 arg2 harg2 arg4 harg4 x0 xo2 _ 5 _ 5 rfl (by decide) l)
  · intro l; exact (row2_6 _ _ l).trans (fin2 arg2 harg2 arg4 harg4 x0 xo2 _ 6 _ 6 rfl (by decide) l)
  · intro l; exact (row2_7 _ _ l).trans (fin2 arg2 harg2 arg4 harg4 x0 xo2 _ 7 _ 7 rfl (by decide) l)
  · intro l; exact (row2_8 _ _ l).trans (fin2_8 arg2 harg2 arg4 harg4 x0 xo2 _ _ 8 rfl l)
  · intro r l h9; rw [harg4.read_unread, dTot_pad x0 r l h9, add_zero]

theorem outB3 (c : Dev nD) (i : grid0.Coords) (arg2 : Memref sig .tc .vmem S8192x128 .i32) (harg2 : arg2.IsWhole) (arg3 : Memref sig .tc .vmem S8192x128 .i32) (harg3 : arg3.IsWhole) (arg4 : Memref sig .tc .vmem S1x16x128 .f32) (harg4 : arg4.IsWhole) (arg5 : Memref sig .tc .vmem S1x16x128 .f32) (harg5 : arg5.IsWhole) (hc0 : ¬cond0_0 i)
    (x0 x1 : Vec Ideal S8192x128 .i32) (xo2 xo3 : Vec Ideal S1x16x128 .f32) (r : Fin 16) (l : Fin 128) :
    out0_B_3 (F := Ideal) c i arg2 harg2 arg3 harg3 arg4 harg4 arg5 harg5 hc0 x0 x1 xo2 xo3 (ix3 (0 : Fin 1) r l)
      = xo3 (ix3 (0 : Fin 1) r l) + Hist.dG1 x0 x1 r l := by
  -- the block after the body: the nine row stores over the running contents, read at row r, lane l
  unfold out0_B_3
  unfold kernelRun0_B
  dsimp only
  sl_unfold_words
  refine read_rows9 (Val := Elt Ideal) arg5.view (harg5.unread xo3) _ _ _ _ _ _ _ _ _ _ _ _ _ _ _ _ _ _
    (fun r l => xo3 (ix3 (0 : Fin 1) r l) + Hist.dG1 x0 x1 r l) ?_ ?_ ?_ ?_ ?_ ?_ ?_ ?_ ?_ ?_ r l
  · intro l; exact (row3_0 _ _ _ l).trans (fin3 arg2 harg2 arg3 harg3 arg5 harg5 x0 x1 xo3 _ _ 0 _ 0 rfl (by decide) l)
  · intro l; exact (row3_1 _ _ _ l).trans (fin3 arg2 harg2 arg3 harg3 arg5 harg5 x0 x1 xo3 _ _ 1 _ 1 rfl (by decide) l)
  · intro l; exact (row3_2 _ _ _ l).trans (fin3 arg2 harg2 arg3 harg3 arg5 harg5 x0 x1 xo3 _ _ 2 _ 2 rfl (by decide) l)
  · intro l; exact (row3_3 _ _ _ l).trans (fin3 arg2 harg2 arg3 harg3 arg5 harg5 x0 x1 xo3 _ _ 3 _ 3 rfl (by decide) l)
  · intro l; exact (row3_4 _ _ _ l).trans (fin3 arg2 harg2 arg3 harg3 arg5 harg5 x0 x1 xo3 _ _ 4 _ 4 rfl (by decide) l)
  · intro l; exact (row3_5 _ _ _ l).trans (fin3 arg2 harg2 arg3 harg3 arg5 harg5 x0 x1 xo3 _ _ 5 _ 5 rfl (by decide) l)
  · intro l; exact (row3_6 _ _ _ l).trans (fin3 arg2 harg2 arg3 harg3 arg5 harg5 x0 x1 xo3 _ _ 6 _ 6 rfl (by decide) l)
  · intro l; exact (row3_7 _ _ _ l).trans (fin3 arg2 harg2 arg3 harg3 arg5 harg5 x0 x1 xo3 _ _ 7 _ 7 rfl (by decide) l)
  · intro l; exact (row3_8 _ _ _ l).trans (fin3_8 arg2 harg2 arg3 harg3 arg5 harg5 x0 x1 xo3 _ _ _ 8 rfl l)
  · intro r l h9; rw [harg5.read_unread, dG1_pad x0 x1 r l h9, add_zero]

end Hist.Body

end
-- ==== Proof.Accum.lean ====
/-
  The two output arrays after the region.  A core visits its eight blocks in order; the first visit resets the
  output block and every visit adds the block's increment, so after the visit of the `q`-th block (q = 0..7) row
  `r`, lane `l` holds the sum of the increments of blocks 0..q of that core; the block is written back after the
  eighth visit only, into the core's slab of the array.  The input window's block at grid point `t` is block `t`
  of the flat input (the host reshapes 2²⁴ words to 131072 rows of 128 lanes, row-major, and point `t` reads rows
  `t·8192 .. t·8192 + 8191`).
-/
import proofs.«411819_j74990128988581_3_alg».proof.Proof.Gen.KernelIdeal.Frame
import proofs.«411819_j74990128988581_3_alg».proof.Proof.Spec
import proofs.«411819_j74990128988581_3_alg».proof.Proof.BodyA
import proofs.«411819_j74990128988581_3_alg».proof.Proof.BodyB
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Hist.Accum

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ)

/-- A grid point as one of the sixteen blocks. -/
def pt (t : Fin cfg0.N) : Fin 16 := ⟨t.val, lt_of_lt_of_eq t.isLt (show cfg0.N = 16 from N_0)⟩

/-- The class-id window's block index at point `t` is `(t, 0)`; so is the group-id window's. -/
theorem hidx0 : ∀ t : Fin grid0.N, win0_0.index t (0 : Fin 2) = t.val ∧ win0_0.index t (1 : Fin 2) = 0 := by decide +kernel
theorem hidx1 : ∀ t : Fin grid0.N, win0_1.index t (0 : Fin 2) = t.val ∧ win0_1.index t (1 : Fin 2) = 0 := by decide +kernel

/-- The array the class-id window reads is the host's reshape of the flat class ids to 131072 rows of 128 lanes. -/
theorem V0_eq (c : Dev nD) : (V m c main_v0 : S131072x128.Idx → BitVec 32)
    = shapeCast S131072x128 (m ((c.tc : Thread nD τ).loc main_arg0)) shapeCasts_S16777216_S131072x128 := by
  show StableHlo.after hostOps0 (fun b => m (c, b)) (Proc.devRef .tc main_v0) = _
  after_results
  rfl

/-- The array the group-id window reads is the host's reshape of the flat group ids. -/
theorem V1_eq (c : Dev nD) : (V m c main_v1 : S131072x128.Idx → BitVec 32)
    = shapeCast S131072x128 (m ((c.tc : Thread nD τ).loc main_arg1)) shapeCasts_S16777216_S131072x128 := by
  show StableHlo.after hostOps0 (fun b => m (c, b)) (Proc.devRef .tc main_v1) = _
  after_results
  rfl

/-- The class-id window's block at point `t` is block `t` of the flat class ids. -/
theorem iblk0_eq (c : Dev nD) (t : Fin cfg0.N) :
    (iblk (F := Ideal) m c 0 t : S8192x128.Idx → BitVec 32)
      = Hist.blockOf (m ((c.tc : Thread nD τ).loc main_arg0)) (pt t) := by
  have hi := hidx0 t
  funext y
  unfold iblk
  rw [View.read_apply]
  show V m c main_v0 _ = _
  rw [V0_eq]
  unfold Hist.blockOf
  refine shapeCast_apply _ _ _ _ ?_
  change (Shape.rowMajor S16777216 _).val = _
  rewrite [Shape.rowMajor_val_one, Shape.rowMajor_val_two]
  have h0 : (y 0).val < 8192 := (y 0).isLt
  have h1 : (y 1).val < 128 := (y 1).isLt
  show ((pt t).val * 8192 + (y 0).val) * 128 + (y 1).val
    = (win0_0.index t 0 * 8192 + 1 * (y 0).val) * 128 + (win0_0.index t 1 * 128 + 1 * (y 1).val)
  rw [hi.1, hi.2]
  show (t.val * 8192 + (y 0).val) * 128 + (y 1).val = _
  omega

/-- The group-id window's block at point `t` is block `t` of the flat group ids. -/
theorem iblk1_eq (c : Dev nD) (t : Fin cfg0.N) :
    (iblk (F := Ideal) m c 1 t : S8192x128.Idx → BitVec 32)
      = Hist.blockOf (m ((c.tc : Thread nD τ).loc main_arg1)) (pt t) := by
  have hi := hidx1 t
  funext y
  unfold iblk
  rw [View.read_apply]
  show V m c main_v1 _ = _
  rw [V1_eq]
  unfold Hist.blockOf
  refine shapeCast_apply _ _ _ _ ?_
  change (Shape.rowMajor S16777216 _).val = _
  rewrite [Shape.rowMajor_val_one, Shape.rowMajor_val_two]
  have h0 : (y 0).val < 8192 := (y 0).isLt
  have h1 : (y 1).val < 128 := (y 1).isLt
  show ((pt t).val * 8192 + (y 0).val) * 128 + (y 1).val
    = (win0_1.index t 0 * 8192 + 1 * (y 0).val) * 128 + (win0_1.index t 1 * 128 + 1 * (y 1).val)
  rw [hi.1, hi.2]
  show (t.val * 8192 + (y 0).val) * 128 + (y 1).val = _
  omega

/-- The blocks visited up to the first are the first alone. -/
theorem filt_zero : Finset.univ.filter (fun j : Fin 8 => j.val ≤ 0) = {(0 : Fin 8)} := by
  ext j
  simp only [Finset.mem_filter, Finset.mem_univ, true_and, Finset.mem_singleton, Fin.ext_iff]
  show j.val ≤ 0 ↔ j.val = 0
  omega

/-- The blocks visited up to the `(q+1)`-st are that one and those up to the `q`-th. -/
theorem filt_succ (q : ℕ) (hq : q + 1 < 8) :
    Finset.univ.filter (fun j : Fin 8 => j.val ≤ q + 1)
      = insert (⟨q + 1, hq⟩ : Fin 8) (Finset.univ.filter (fun j : Fin 8 => j.val ≤ q)) := by
  ext j
  simp only [Finset.mem_filter, Finset.mem_univ, true_and, Finset.mem_insert, Fin.ext_iff]
  omega

theorem not_mem_filt (q : ℕ) (hq : q + 1 < 8) :
    (⟨q + 1, hq⟩ : Fin 8) ∉ Finset.univ.filter (fun j : Fin 8 => j.val ≤ q) := by
  simp only [Finset.mem_filter, Finset.mem_univ, true_and]
  omega

/-- The running sums, at a point `t = 8k + q`, by induction on `q`: the core's first point resets and adds its own
    increment; every later point adds its increment to what the point before left. -/
theorem outs_aux (c : Dev nD) (k : Fin 2) (r : Fin 16) (l : Fin 128) :
    ∀ (q : ℕ) (hq : q < 8) (t : Fin cfg0.N), t.val = k.val * 8 + q →
      (outsAt0 (F := Ideal) m c t.val t.isLt).1 (ix3 (0 : Fin 1) r l)
          = ∑ j ∈ Finset.univ.filter (fun j : Fin 8 => j.val ≤ q),
              Hist.dTot (Hist.blockOf (m ((c.tc : Thread nD τ).loc main_arg0)) (Hist.blk k j)) r l
      ∧ (outsAt0 (F := Ideal) m c t.val t.isLt).2 (ix3 (0 : Fin 1) r l)
          = ∑ j ∈ Finset.univ.filter (fun j : Fin 8 => j.val ≤ q),
              Hist.dG1 (Hist.blockOf (m ((c.tc : Thread nD τ).loc main_arg0)) (Hist.blk k j))
                (Hist.blockOf (m ((c.tc : Thread nD τ).loc main_arg1)) (Hist.blk k j)) r l := by
  intro q
  induction q with
  | zero =>
    intro hq t ht
    have h0 : t.val % 8 = 0 := by omega
    have hp : pt t = Hist.blk k (0 : Fin 8) := Fin.ext (by show t.val = k.val * 8 + 0; omega)
    rw [outsAt0_A m c t h0, filt_zero, Finset.sum_singleton, Finset.sum_singleton]
    dsimp only
    constructor
    · refine (Hist.Body.outA2 c (grid0.coords t) (ms0_0 t) (hs0_0 t) (ms0_1 t) (hs0_1 t) (ms0_2 t) (hs0_2 t) (ms0_3 t) (hs0_3 t) _ (iblk m c 0 t) (iblk m c 1 t) r l).trans ?_
      rw [iblk0_eq, hp]
    · refine (Hist.Body.outA3 c (grid0.coords t) (ms0_0 t) (hs0_0 t) (ms0_1 t) (hs0_1 t) (ms0_2 t) (hs0_2 t) (ms0_3 t) (hs0_3 t) _ (iblk m c 0 t) (iblk m c 1 t) r l).trans ?_
      rw [iblk0_eq, iblk1_eq, hp]
  | succ q ih =>
    intro hq t ht
    have hN : t.val < 16 := lt_of_lt_of_eq t.isLt (show cfg0.N = 16 from N_0)
    have h0 : ¬t.val % 8 = 0 := by omega
    have hp : pt t = Hist.blk k (⟨q + 1, hq⟩ : Fin 8) := Fin.ext (by show t.val = k.val * 8 + (q + 1); omega)
    have ih' := ih (by omega) ⟨t.val - 1, Nat.lt_of_le_of_lt (Nat.sub_le _ _) t.isLt⟩ (by show t.val - 1 = k.val * 8 + q; omega)
    dsimp only at ih'
    rw [outsAt0_B m c t h0, filt_succ q hq, Finset.sum_insert (not_mem_filt q hq), Finset.sum_insert (not_mem_filt q hq)]
    dsimp only
    constructor
    · refine (Hist.Body.outB2 c (grid0.coords t) (ms0_0 t) (hs0_0 t) (ms0_1 t) (hs0_1 t) (ms0_2 t) (hs0_2 t) (ms0_3 t) (hs0_3 t) _ (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2 r l).trans ?_
      rw [ih'.1, iblk0_eq, hp, add_comm]
    · refine (Hist.Body.outB3 c (grid0.coords t) (ms0_0 t) (hs0_0 t) (ms0_1 t) (hs0_1 t) (ms0_2 t) (hs0_2 t) (ms0_3 t) (hs0_3 t) _ (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2 r l).trans ?_
      rw [ih'.2, iblk0_eq, iblk1_eq, hp, add_comm]

/-- After the visit of block `q` of core `k` the two output blocks hold the sums of the increments of that core's
    blocks 0..q. -/
theorem outs_eq (c : Dev nD) (k : Fin 2) (q : Fin 8) (h : k.val * 8 + q.val < cfg0.N) (r : Fin 16) (l : Fin 128) :
    (outsAt0 (F := Ideal) m c (k.val * 8 + q.val) h).1 (ix3 (0 : Fin 1) r l)
        = ∑ j ∈ Finset.univ.filter (fun j : Fin 8 => j.val ≤ q.val),
            Hist.dTot (Hist.blockOf (m ((c.tc : Thread nD τ).loc main_arg0)) (Hist.blk k j)) r l
    ∧ (outsAt0 (F := Ideal) m c (k.val * 8 + q.val) h).2 (ix3 (0 : Fin 1) r l)
        = ∑ j ∈ Finset.univ.filter (fun j : Fin 8 => j.val ≤ q.val),
            Hist.dG1 (Hist.blockOf (m ((c.tc : Thread nD τ).loc main_arg0)) (Hist.blk k j))
              (Hist.blockOf (m ((c.tc : Thread nD τ).loc main_arg1)) (Hist.blk k j)) r l :=
  outs_aux m c k r l q.val q.isLt ⟨k.val * 8 + q.val, h⟩ rfl

/-- The output windows' block index at point `t` is `(t / 8, 0, 0)`: the core's slab. -/
theorem hidx2 : ∀ t : Fin grid0.N, win0_2.index t (0 : Fin 3) = t.val / 8 ∧ win0_2.index t (1 : Fin 3) = 0 ∧ win0_2.index t (2 : Fin 3) = 0 := by decide +kernel
theorem hidx3 : ∀ t : Fin grid0.N, win0_3.index t (0 : Fin 3) = t.val / 8 ∧ win0_3.index t (1 : Fin 3) = 0 ∧ win0_3.index t (2 : Fin 3) = 0 := by decide +kernel

/-- The core of a grid point. -/
def coreOf (t : Fin cfg0.N) : Fin 2 := ⟨t.val / 8, by have := lt_of_lt_of_eq t.isLt (show cfg0.N = 16 from N_0); omega⟩

/-- The eighth point of a core. -/
def lastPt (k : Fin 2) : Fin cfg0.N := ⟨k.val * 8 + 7, by rw [show cfg0.N = 16 from N_0]; have := k.isLt; omega⟩

/-- After a core's eighth visit the two output blocks hold the core's totals. -/
theorem last_eq (c : Dev nD) (t : Fin cfg0.N) (h7 : t.val % 8 = 7) (r : Fin 16) (l : Fin 128) :
    (outsAt0 (F := Ideal) m c t.val t.isLt).1 (ix3 (0 : Fin 1) r l)
        = Hist.accTot (m ((c.tc : Thread nD τ).loc main_arg0)) (coreOf t) r l
    ∧ (outsAt0 (F := Ideal) m c t.val t.isLt).2 (ix3 (0 : Fin 1) r l)
        = Hist.accG1 (m ((c.tc : Thread nD τ).loc main_arg0)) (m ((c.tc : Thread nD τ).loc main_arg1)) (coreOf t) r l := by
  have h := outs_aux m c (coreOf t) r l 7 (by omega) t (by show t.val = t.val / 8 * 8 + 7; omega)
  rw [Finset.filter_true_of_mem (fun j _ => by have := j.isLt; omega)] at h
  exact h

/-- What a write-back of the class-total block writes is the core's slab of the totals. -/
theorem flushed2 (c : Dev nD) (t : Fin cfg0.N) (hf : (cfg0.win 2).flush t = true) :
    (dats (F := Ideal) m 0 c).flushed 2 t
      = ((cfg0.win 2).blk t).view.read (Elt Ideal) (Hist.accTotA (m ((c.tc : Thread nD τ).loc main_arg0))) := by
  have h7 : t.val % 8 = 7 := (flush0_2 t).mp hf
  have hi := hidx2 t
  show (cfg0.win 2).cut (grid0.coords t) ((dats m 0 c).after 2 t) = _
  rw [after0_2]
  funext y
  rw [View.read_apply]
  have hy0 : (y 0).val < 1 := (y 0).isLt
  have hy1 : (y 1).val < 16 := (y 1).isLt
  have hy2 : (y 2).val < 128 := (y 2).isLt
  have e1 : win0_2.xinj (grid0.coords t) y = ix3 (0 : Fin 1) (⟨(y 1).val, hy1⟩ : Fin 16) (⟨(y 2).val, hy2⟩ : Fin 128) := by
    funext a
    match a with
    | ⟨0, _⟩ => exact Fin.ext (by show (y 0).val = 0; omega)
    | ⟨1, _⟩ => rfl
    | ⟨2, _⟩ => rfl
  show (outsAt0 m c t.val t.isLt).1 (win0_2.xinj (grid0.coords t) y)
    = Hist.accTotA (m ((c.tc : Thread nD τ).loc main_arg0)) (((cfg0.win 2).blk t).view.emb y)
  rw [e1, (last_eq m c t h7 _ _).1]
  unfold Hist.accTotA
  congr 1 <;> apply Fin.ext
  · show t.val / 8 = win0_2.index t 0 * 1 + 1 * (y 0).val
    rw [hi.1]; omega
  · show (y 1).val = win0_2.index t 1 * 16 + 1 * (y 1).val
    rw [hi.2.1]; omega
  · show (y 2).val = win0_2.index t 2 * 128 + 1 * (y 2).val
    rw [hi.2.2]; omega

/-- Every index of the class-total array lies in the slab its core's eighth point writes back. -/
theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 2 := (i 0).isLt
  have h1 : (i 1 : Nat) < 16 := (i 1).isLt
  have h2 : (i 2 : Nat) < 128 := (i 2).isLt
  refine ⟨lastPt ⟨(i 0).val, h0⟩, (flush0_2 _).mpr (by show ((i 0).val * 8 + 7) % 8 = 7; omega), ?_⟩
  have hi := hidx2 (lastPt ⟨(i 0).val, h0⟩)
  show i ∈ ((View.whole main_v2_0).slice (win0_2.rect (lastPt ⟨(i 0).val, h0⟩))).set
  rw [View.set_slice_whole, Rect.mem_set_unit]
  intro a
  match a with
  | ⟨0, _⟩ =>
    show win0_2.index (lastPt ⟨(i 0).val, h0⟩) 0 * 1 ≤ (i 0 : Nat) ∧ (i 0 : Nat) < win0_2.index (lastPt ⟨(i 0).val, h0⟩) 0 * 1 + 1
    rw [hi.1]; show ((i 0).val * 8 + 7) / 8 * 1 ≤ (i 0 : Nat) ∧ (i 0 : Nat) < ((i 0).val * 8 + 7) / 8 * 1 + 1; omega
  | ⟨1, _⟩ =>
    show win0_2.index (lastPt ⟨(i 0).val, h0⟩) 1 * 16 ≤ (i 1 : Nat) ∧ (i 1 : Nat) < win0_2.index (lastPt ⟨(i 0).val, h0⟩) 1 * 16 + 16
    rw [hi.2.1]; omega
  | ⟨2, _⟩ =>
    show win0_2.index (lastPt ⟨(i 0).val, h0⟩) 2 * 128 ≤ (i 2 : Nat) ∧ (i 2 : Nat) < win0_2.index (lastPt ⟨(i 0).val, h0⟩) 2 * 128 + 128
    rw [hi.2.2]; omega

/-- The class-total array after the region. -/
theorem final2 (c : Dev nD) :
    (dats (F := Ideal) m 0 c).arrAt 2 cfg0.N = Hist.accTotA (m ((c.tc : Thread nD τ).loc main_arg0)) :=
  (dats m 0 c).arrAt_eq_of_cover 2 (Hist.accTotA (m ((c.tc : Thread nD τ).loc main_arg0))) (flushed2 m c) (cover2 c)

/-- What a write-back of the group-1 block writes is the core's slab of the group-1 counts. -/
theorem flushed3 (c : Dev nD) (t : Fin cfg0.N) (hf : (cfg0.win 3).flush t = true) :
    (dats (F := Ideal) m 0 c).flushed 3 t
      = ((cfg0.win 3).blk t).view.read (Elt Ideal) (Hist.accG1A (m ((c.tc : Thread nD τ).loc main_arg0)) (m ((c.tc : Thread nD τ).loc main_arg1))) := by
  have h7 : t.val % 8 = 7 := (flush0_3 t).mp hf
  have hi := hidx3 t
  show (cfg0.win 3).cut (grid0.coords t) ((dats m 0 c).after 3 t) = _
  rw [after0_3]
  funext y
  rw [View.read_apply]
  have hy0 : (y 0).val < 1 := (y 0).isLt
  have hy1 : (y 1).val < 16 := (y 1).isLt
  have hy2 : (y 2).val < 128 := (y 2).isLt
  have e1 : win0_3.xinj (grid0.coords t) y = ix3 (0 : Fin 1) (⟨(y 1).val, hy1⟩ : Fin 16) (⟨(y 2).val, hy2⟩ : Fin 128) := by
    funext a
    match a with
    | ⟨0, _⟩ => exact Fin.ext (by show (y 0).val = 0; omega)
    | ⟨1, _⟩ => rfl
    | ⟨2, _⟩ => rfl
  show (outsAt0 m c t.val t.isLt).2 (win0_3.xinj (grid0.coords t) y)
    = Hist.accG1A (m ((c.tc : Thread nD τ).loc main_arg0)) (m ((c.tc : Thread nD τ).loc main_arg1)) (((cfg0.win 3).blk t).view.emb y)
  rw [e1, (last_eq m c t h7 _ _).2]
  unfold Hist.accG1A
  congr 1 <;> apply Fin.ext
  · show t.val / 8 = win0_3.index t 0 * 1 + 1 * (y 0).val
    rw [hi.1]; omega
  · show (y 1).val = win0_3.index t 1 * 16 + 1 * (y 1).val
    rw [hi.2.1]; omega
  · show (y 2).val = win0_3.index t 2 * 128 + 1 * (y 2).val
    rw [hi.2.2]; omega

/-- Every index of the group-1 array lies in the slab its core's eighth point writes back. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 2 := (i 0).isLt
  have h1 : (i 1 : Nat) < 16 := (i 1).isLt
  have h2 : (i 2 : Nat) < 128 := (i 2).isLt
  refine ⟨lastPt ⟨(i 0).val, h0⟩, (flush0_3 _).mpr (by show ((i 0).val * 8 + 7) % 8 = 7; omega), ?_⟩
  have hi := hidx3 (lastPt ⟨(i 0).val, h0⟩)
  show i ∈ ((View.whole main_v2_1).slice (win0_3.rect (lastPt ⟨(i 0).val, h0⟩))).set
  rw [View.set_slice_whole, Rect.mem_set_unit]
  intro a
  match a with
  | ⟨0, _⟩ =>
    show win0_3.index (lastPt ⟨(i 0).val, h0⟩) 0 * 1 ≤ (i 0 : Nat) ∧ (i 0 : Nat) < win0_3.index (lastPt ⟨(i 0).val, h0⟩) 0 * 1 + 1
    rw [hi.1]; show ((i 0).val * 8 + 7) / 8 * 1 ≤ (i 0 : Nat) ∧ (i 0 : Nat) < ((i 0).val * 8 + 7) / 8 * 1 + 1; omega
  | ⟨1, _⟩ =>
    show win0_3.index (lastPt ⟨(i 0).val, h0⟩) 1 * 16 ≤ (i 1 : Nat) ∧ (i 1 : Nat) < win0_3.index (lastPt ⟨(i 0).val, h0⟩) 1 * 16 + 16
    rw [hi.2.1]; omega
  | ⟨2, _⟩ =>
    show win0_3.index (lastPt ⟨(i 0).val, h0⟩) 2 * 128 ≤ (i 2 : Nat) ∧ (i 2 : Nat) < win0_3.index (lastPt ⟨(i 0).val, h0⟩) 2 * 128 + 128
    rw [hi.2.2]; omega

/-- The group-1 array after the region. -/
theorem final3 (c : Dev nD) :
    (dats (F := Ideal) m 0 c).arrAt 3 cfg0.N
      = Hist.accG1A (m ((c.tc : Thread nD τ).loc main_arg0)) (m ((c.tc : Thread nD τ).loc main_arg1)) :=
  (dats m 0 c).arrAt_eq_of_cover 3 (Hist.accG1A (m ((c.tc : Thread nD τ).loc main_arg0)) (m ((c.tc : Thread nD τ).loc main_arg1))) (flushed3 m c) (cover3 c)

end Hist.Accum

end
-- ==== Proof.KTail.lean ====
/-
  The idealized kernel's run, read: after the region the host sums each output array over the two cores and then
  over the 128 lanes, keeps the nine class rows, and closes with the quotient computation.  So the result is the
  closing computation `Hist.tail` of the per-class totals minus the group-1 counts, the group-1 counts, and the
  sum of the group-1 counts over the classes.
-/
import proofs.«411819_j74990128988581_3_alg».proof.Proof.Gen.KernelIdeal.Frame
import proofs.«411819_j74990128988581_3_alg».proof.Proof.Spec
import proofs.«411819_j74990128988581_3_alg».proof.Proof.Accum
import Idealize.ShloMosaic.Lib.StableHlo.Run
import Idealize.ShloMosaic.Lib.Pipeline.Value
import Idealize.ShloMosaic.Lib.ValueIdx
import Idealize.ShloMosaic.PureOps.Ideal.Laws
import Idealize.ShloMosaic.Lib.IdealHost

set_option maxRecDepth 16384

noncomputable section

namespace Hist.KTail

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.KernelIdeal.Facts₀

variable (m : (ℓ : Loc nD τ sig) → Buf (Elt Ideal) ℓ) (ρ : Dev nD → PrngReg)

/-- The kernel's result as a function of the two flat inputs. -/
def result (p a : Hist.SN.Idx → BitVec 32) : FVec Ideal S_ .f32 :=
  Hist.tail (F := Ideal) Facts₀.bcast_S_S9 Facts₀.reducesTo_S9_S_d0 Facts₀.h_S_
    (subf (F := Ideal) (Hist.kTotV p) (Hist.kG1V p a)) (Hist.kG1V p a)
    (Host.reduceAdd (F := Ideal) (Hist.kG1V p a) (constant (F := Ideal) S_ .f32 0x00000000#32) Facts₀.reducesTo_S9_S_d0 Facts₀.h_S_)

open scoped BigOperators

/-- A class index read among the sixteen accumulator rows. -/
theorem cls_lt (j : S9.Idx) : (j 0).val < 16 := lt_of_lt_of_le (show (j 0).val < 9 from (j 0).isLt) (by decide)

/-- The host's sum of a [2,16,128] array over the cores (axis 0), then over the lanes (axis 1 of what is left), cut to
    the first nine rows, read at class `j`: the double sum over lanes and cores of row `j`.  Each one-axis host sum is
    its initial value, zero, plus the sum over that axis; the slice starts at row 0. -/
theorem sliceSum (A : FVec Ideal S2x16x128 .f32) (h0 : S2x16x128.ReducesTo [0] S16x128) (h1 : S16x128.ReducesTo [1] S16)
    (hu : 0 < S_.numel) (hs : S16.Slices ![0] S9) (j : S9.Idx) :
    extractStridedSlice S9 ![0]
        (Host.reduceAdd (F := Ideal)
          (Host.reduceAdd (F := Ideal) A (constant (F := Ideal) S_ .f32 0x00000000#32) h0 hu)
          (constant (F := Ideal) S_ .f32 0x00000000#32) h1 hu)
        hs j
      = ∑ l : Fin 128, ∑ core : Fin 2, A (ix3 core (⟨(j 0).val, cls_lt j⟩ : Fin 16) l) := by
  unfold extractStridedSlice
  rw [hostReduceAdd_apply, Ideal.hostReduceAdd_single h1 (by decide), constant_apply, Ideal.ofBits_zero_f32, zero_add]
  refine Finset.sum_congr rfl fun l _ => ?_
  rw [hostReduceAdd_apply, Ideal.hostReduceAdd_single h0 (by decide), constant_apply, Ideal.ofBits_zero_f32, zero_add]
  refine Finset.sum_congr rfl fun core _ => congrArg A (funext fun d => ?_)
  match d with
  | ⟨0, _⟩ => exact Fin.ext rfl
  | ⟨1, _⟩ => exact Fin.ext (Nat.zero_add _)
  | ⟨2, _⟩ => exact Fin.ext rfl

/-- Applied to the class-total array, the host's two sums and the cut give the per-class totals. -/
theorem kTot_read (p : Hist.SN.Idx → BitVec 32) (h0 : S2x16x128.ReducesTo [0] S16x128) (h1 : S16x128.ReducesTo [1] S16)
    (hu : 0 < S_.numel) (hs : S16.Slices ![0] S9) :
    extractStridedSlice S9 ![0]
        (Host.reduceAdd (F := Ideal)
          (Host.reduceAdd (F := Ideal) (Hist.accTotA p) (constant (F := Ideal) S_ .f32 0x00000000#32) h0 hu)
          (constant (F := Ideal) S_ .f32 0x00000000#32) h1 hu)
        hs
      = Hist.kTotV p := by
  funext j
  rw [sliceSum]
  unfold Hist.kTotV Hist.kTot Hist.accTotA
  exact Finset.sum_congr rfl fun l _ => Finset.sum_congr rfl fun core _ => rfl

/-- Applied to the group-1 array, they give the per-class group-1 counts. -/
theorem kG1_read (p a : Hist.SN.Idx → BitVec 32) (h0 : S2x16x128.ReducesTo [0] S16x128) (h1 : S16x128.ReducesTo [1] S16)
    (hu : 0 < S_.numel) (hs : S16.Slices ![0] S9) :
    extractStridedSlice S9 ![0]
        (Host.reduceAdd (F := Ideal)
          (Host.reduceAdd (F := Ideal) (Hist.accG1A p a) (constant (F := Ideal) S_ .f32 0x00000000#32) h0 hu)
          (constant (F := Ideal) S_ .f32 0x00000000#32) h1 hu)
        hs
      = Hist.kG1V p a := by
  funext j
  rw [sliceSum]
  unfold Hist.kG1V Hist.kG1 Hist.accG1A
  exact Finset.sum_congr rfl fun l _ => Finset.sum_congr rfl fun core _ => rfl

set_option maxHeartbeats 1000000 in
/-- What the result buffer holds after the host operations that follow the region.  Each operation's result is its
    function of its operands' contents; the two output arrays are as the region leaves them, the accumulated class
    totals and group-1 counts; the host's two sums and the cut turn each into its per-class vector; what is left is
    the closing computation, term for term. -/
theorem tailAt (c : Dev nD) :
    Pipeline.afterTail₀ cfgs (dats (F := Ideal) m) 0 (V0 m) [hostOps1] c main_v18
      = result (m ((c.tc : Thread nD τ).loc main_arg0)) (m ((c.tc : Thread nD τ).loc main_arg1)) := by
  unfold Pipeline.afterTail₀
  rw [show ([hostOps1] : List (List (HloOp τ sig (Elt Ideal)))).flatten = hostOps1 from rfl]
  after_results
  have h2 : Pipeline.withArrays (cfgs 0).spec c (V0 m c) (fun w => (dats (F := Ideal) m 0 c).arrAt w (cfgs 0).N)
        (Proc.devRef .tc main_v2_0)
      = Hist.accTotA (m ((c.tc : Thread nD τ).loc main_arg0)) :=
    (Pipeline.withArrays_arr spec0 launch0.win.arr_inj c _ _ 2).trans (Hist.Accum.final2 m c)
  have h3 : Pipeline.withArrays (cfgs 0).spec c (V0 m c) (fun w => (dats (F := Ideal) m 0 c).arrAt w (cfgs 0).N)
        (Proc.devRef .tc main_v2_1)
      = Hist.accG1A (m ((c.tc : Thread nD τ).loc main_arg0)) (m ((c.tc : Thread nD τ).loc main_arg1)) :=
    (Pipeline.withArrays_arr spec0 launch0.win.arr_inj c _ _ 3).trans (Hist.Accum.final3 m c)
  rw [h2, h3, kTot_read, kG1_read]
  rfl

/-- Every weakly fair execution of the idealized kernel's @main terminates with the result buffer at `result` of
    the launch contents of the two arguments, which end unchanged. -/
theorem run : θ_run (defs (F := Ideal)) (onTc (τ := τ) (main (F := Ideal))) ⟨m, fun _ => 0, ρ⟩ (fun r => ∀ c : Dev nD,
      r.2.mem ((c.tc : Thread nD τ).loc main_v18)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v18 (Pipeline.mem_restRefs_of main_v18 (by decide) (by decide))).trans (tailAt m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Hist.KTail

end
-- ==== Proof.RefValue.lean ====
/-
  What the reference program computes, stated over its two inputs: the class words x0 and the group words x1, 2²⁴ of
  each.

  The reference forms the 32-bit word x0 i * 2 + x1 i (wrapping) at every position i, and adds a one into bin b of 18
  bins for every position whose word, read as a signed integer, equals b; a position whose signed word is outside
  [0, 18) adds nothing.  Bin 2r holds the count for class r in group 0, bin 2r + 1 the count for class r in group 1.
  It also sums, in 32-bit arithmetic, the indicators of x1 i ≠ 0 and converts the sum to a float.

  Here: bin b of the scatter is the number of positions whose signed word is b (`v6_apply`); the two count vectors
  read at class r (`g0_apply`, `g1_apply`); the 32-bit sum of 2²⁴ zeros and ones is at most 2²⁴ < 2³¹, so it does
  not wrap and its signed reading is the number of positions with a non-zero group word (`n1_apply`); and the
  reference's result is the closing computation of these three (`result_eq_tail`).
-/
import proofs.«411819_j74990128988581_3_alg».proof.Proof.RefRead
import proofs.«411819_j74990128988581_3_alg».proof.Proof.Spec

noncomputable section

namespace Hist.Ref

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read

/-! ## The scatter's dimension numbers: update position j lands at the signed value of its index word -/

/-- The scatter's dimension numbers: 18 bins, one index word per update, no window axes. -/
abbrev dS := scatter_S18_S16777216x1_S16777216_n_0_0_1

/-- A rank-1 index has one coordinate. -/
theorem val_j (j : S16777216.Idx) (x : Fin S16777216.rank) : (j x).val = (j 0).val := by
  have : x = 0 := Fin.ext (by have := x.isLt; show x.val = 0; change x.val < 1 at this; omega)
  rw [this]

/-- Update position j reads its start index at row (j 0), column 0 of the index array. -/
theorem siIdx_eq (j : S16777216.Idx) (c : Fin dS.scatterDimsToOperandDims.length) :
    dS.siIdx j c = ix2 (j 0) 0 := by
  funext b
  match b with
  | ⟨0, _⟩ =>
    apply Fin.ext
    simp only [ScatterDims.siIdx, ScatterDims.siCoord]
    rw [dif_neg (by decide)]
    rw [Fin.coe_cast, val_j]
  | ⟨1, _⟩ =>
    apply Fin.ext
    have hc : c.val = 0 := by
      have := c.isLt
      change c.val < 1 at this
      omega
    simp only [ScatterDims.siIdx]
    rw [dif_pos (by decide)]
    exact hc

/-- The window starts, on the one bin axis, at the signed value of the index word. -/
theorem start_eq (j : S16777216.Idx) (idx : IVec S16777216x1 32) (a : Fin S18.rank) :
    dS.start j idx a = (idx (ix2 (j 0) 0)).toInt := by
  have ha : a ∈ dS.scatterDimsToOperandDims := by
    have : a = 0 := Fin.ext (by have := a.isLt; show a.val = 0; change a.val < 1 at this; omega)
    subst this
    exact List.mem_singleton.2 rfl
  unfold ScatterDims.start
  rw [dif_pos ha, siIdx_eq]
  rfl

/-- The bin axis is an inserted axis: the window coordinate on it is zero. -/
theorem window_eq (j : S16777216.Idx) (a : Fin S18.rank) : dS.window j a = 0 := by
  have ha : a ∉ dS.sKept := by
    have : a = 0 := Fin.ext (by have := a.isLt; show a.val = 0; change a.val < 1 at this; omega)
    subst this
    decide
  unfold ScatterDims.window
  rw [dif_neg ha]

theorem fin1_eq_zero {n : Nat} (hn : n = 1) (a : Fin n) : a.val = 0 := by have := a.isLt; omega

/-- Update position j lands in bin b exactly when its index word, read signed, is b. -/
theorem resultIdx_iff (j : S16777216.Idx) (idx : IVec S16777216x1 32) (b : Fin 18) :
    dS.resultIdx? j idx = some (ix1 b) ↔ (idx (ix2 (j 0) 0)).toInt = (b.val : ℤ) := by
  have hsz : ∀ a : Fin S18.rank, (S18.size a : ℤ) = 18 := fun a => by
    have : a = 0 := Fin.ext (fin1_eq_zero rfl a)
    subst this; rfl
  unfold ScatterDims.resultIdx?
  constructor
  · intro h
    split at h
    · rename_i hb
      have h1 := congrFun (Option.some.inj h) 0
      have h2 : (dS.start j idx 0 + dS.window j 0).toNat = b.val := congrArg Fin.val h1
      have h0 := (hb 0).1
      rw [start_eq, window_eq] at h0 h2
      omega
    · exact absurd h (by simp)
  · intro h
    have hb : ∀ a, 0 ≤ dS.start j idx a + dS.window j a ∧ dS.start j idx a + dS.window j a < S18.size a := fun a => by
      rw [start_eq, window_eq, hsz, h]
      have := b.isLt
      omega
    rw [dif_pos hb]
    congr 1
    funext a
    have : a = 0 := Fin.ext (fin1_eq_zero rfl a)
    subst this
    apply Fin.ext
    show (dS.start j idx 0 + dS.window j 0).toNat = b.val
    rw [start_eq, window_eq, h]
    omega

/-! ## The scatter read at a bin -/

/-- The update value: the pattern 0x3F800000 is the real number one. -/
theorem one_f32 : Ideal.ofBits .f32 0x3F800000#32 = 1 := by
  simp [Ideal.ofBits, Ideal.ieee, -EReal.coe_mul]; norm_num

/-- The index word of update position j is x0 j * 2 + x1 j. -/
theorem v5_at (x0 x1 : (⟨S16777216, .i32⟩ : BufTy).Contents (Elt Ideal)) (j : S16777216.Idx) :
    val_main_v5 (F := Ideal) x0 x1 (ix2 (j 0) 0) = x0 j * 2#32 + x1 j := by
  rw [val_main_v5_apply]
  have : idx_main_v5 (ix2 (j 0) 0) = j := by funext a; match a with | ⟨0, _⟩ => rfl
  rw [this, val_main_v2_apply, val_main_v1_apply, val_main_v0_apply, val_main_c_apply]
  rfl

/-- The accumulating scatter at the ideal values: the operand's element plus the sum of the updates landing on it. -/
theorem scatter_apply (x : S18.Idx → EReal) (idx : IVec S16777216x1 32) (upd : S16777216.Idx → EReal) (i : S18.Idx) :
    Host.scatterAdd (F := Ideal) (φ := .f32) dS x idx upd i
      = x i + ∑ j ∈ Finset.univ.filter (fun j => dS.resultIdx? j idx = some i), upd j := rfl

/-- Bin b of the scatter is the number of positions whose word x0 i * 2 + x1 i, read signed, is b. -/
theorem v6_apply (x0 x1 : (⟨S16777216, .i32⟩ : BufTy).Contents (Elt Ideal)) (b : Fin 18) :
    val_main_v6 (F := Ideal) x0 x1 (ix1 b)
      = ∑ i : Hist.SN.Idx, Hist.w ((x0 i * 2#32 + x1 i).toInt = (b.val : ℤ)) := by
  unfold val_main_v6
  rw [scatter_apply, Finset.sum_filter]
  have h4 : val_main_v4 (F := Ideal) (ix1 b) = 0 := by
    rw [val_main_v4_apply, val_main_cst_0_apply]
    exact Ideal.ofBits_zero_f32
  rw [h4, zero_add]
  refine Finset.sum_congr rfl fun j _ => ?_
  have h3 : val_main_v3 (F := Ideal) j = 1 := by
    rw [val_main_v3_apply, val_main_cst_apply]
    exact one_f32
  rw [h3]
  unfold Hist.w
  by_cases h : (x0 j * 2#32 + x1 j).toInt = (b.val : ℤ)
  · rw [if_pos h, if_pos]
    rw [resultIdx_iff, v5_at]; exact h
  · rw [if_neg h, if_neg]
    rw [resultIdx_iff, v5_at]; exact h

/-! ## The two count vectors at a class -/

/-- Equivalent tests have equal weights. -/
theorem w_congr {P Q : Prop} [Decidable P] [Decidable Q] (h : P ↔ Q) : Hist.w P = Hist.w Q := by
  unfold Hist.w
  exact if_congr h rfl rfl

/-- The group-0 count of class r: bin 2r of the scatter. -/
theorem g0_apply (x0 x1 : (⟨S16777216, .i32⟩ : BufTy).Contents (Elt Ideal)) (r : Fin 9) :
    val_main_v15 (F := Ideal) x0 x1 (ix1 r)
      = ∑ i : Hist.SN.Idx, Hist.w ((x0 i * 2#32 + x1 i).toInt = 2 * (r.val : ℤ)) := by
  have hr := r.isLt
  rw [val_main_v15_apply, val_main_v14_apply, val_main_v7_apply]
  have hi : idx_main_v7 (idx_main_v14 (idx_main_v15 (ix1 r))) = ix1 (⟨2 * r.val, by omega⟩ : Fin 18) := by
    funext a
    match a with
    | ⟨0, _⟩ => exact Fin.ext (by show r.val / 1 * 2 + 0 = 2 * r.val; omega)
  rw [hi, v6_apply]
  refine Finset.sum_congr rfl fun i _ => w_congr ?_
  show _ = ((2 * r.val : ℕ) : ℤ) ↔ _
  rw [Nat.cast_mul, Nat.cast_ofNat]

/-- The group-1 count of class r: bin 2r + 1 of the scatter. -/
theorem g1_apply (x0 x1 : (⟨S16777216, .i32⟩ : BufTy).Contents (Elt Ideal)) (r : Fin 9) :
    val_main_v19 (F := Ideal) x0 x1 (ix1 r)
      = ∑ i : Hist.SN.Idx, Hist.w ((x0 i * 2#32 + x1 i).toInt = 2 * (r.val : ℤ) + 1) := by
  have hr := r.isLt
  rw [val_main_v19_apply, val_main_v18_apply, val_main_v7_apply]
  have hi : idx_main_v7 (idx_main_v18 (idx_main_v19 (ix1 r))) = ix1 (⟨2 * r.val + 1, by omega⟩ : Fin 18) := by
    funext a
    match a with
    | ⟨0, _⟩ => exact Fin.ext (by show r.val / 1 * 2 + (1 + 0) = 2 * r.val + 1; omega)
  rw [hi, v6_apply]
  refine Finset.sum_congr rfl fun i _ => w_congr ?_
  show _ = ((2 * r.val + 1 : ℕ) : ℤ) ↔ _
  rw [Nat.cast_add, Nat.cast_mul, Nat.cast_ofNat, Nat.cast_one]

/-! ## The number of positions in group 1 -/

/-- A fold of wrapping 32-bit additions from zero is the word of the sum of the summands' values. -/
theorem fold_addi {ι : Type} (S : Finset ι) (f : ι → BitVec 32) :
    S.fold IntOp.addi 0#32 f = BitVec.ofNat 32 (∑ i ∈ S, (f i).toNat) := by
  induction S using Finset.cons_induction with
  | empty => rfl
  | cons a S ha ih =>
    rw [Finset.fold_cons, Finset.sum_cons, ih]
    apply BitVec.eq_of_toNat_eq
    show ((f a).toNat + (BitVec.ofNat 32 (∑ i ∈ S, (f i).toNat)).toNat) % 2 ^ 32 = _
    rw [BitVec.toNat_ofNat, BitVec.toNat_ofNat, Nat.add_mod_mod]

/-- A sum of zeros and ones is at most the number of summands. -/
theorem sum01_le {ι : Type} (S : Finset ι) (g : ι → ℕ) (hg : ∀ i, g i ≤ 1) : ∑ i ∈ S, g i ≤ S.card := by
  have := Finset.sum_le_card_nsmul S g 1 (fun i _ => hg i)
  rwa [smul_eq_mul, mul_one] at this

/-- The sum of the 0/1 indicators of a test, as an extended real, is the sum of the test's weights. -/
theorem cast_sum01 {ι : Type} (S : Finset ι) (P : ι → Prop) [DecidablePred P] :
    (((∑ i ∈ S, (if P i then 1 else 0 : ℕ) : ℕ) : ℝ) : EReal) = ∑ i ∈ S, Hist.w (P i) := by
  induction S using Finset.cons_induction with
  | empty => simp
  | cons a S ha ih =>
    rw [Finset.sum_cons, Finset.sum_cons, Nat.cast_add, EReal.coe_add, ih]
    congr 1
    unfold Hist.w
    by_cases h : P a
    · rw [if_pos h, if_pos h]; simp
    · rw [if_neg h, if_neg h]; simp

/-- The widened comparison bit at position i is 1 when the group word is not zero, else 0. -/
theorem v10_toNat (x1 : (⟨S16777216, .i32⟩ : BufTy).Contents (Elt Ideal)) (i : S16777216.Idx) :
    (val_main_v10 (F := Ideal) x1 i).toNat = if x1 i ≠ 0#32 then 1 else 0 := by
  rw [val_main_v10_apply, val_main_v9_apply, val_main_v8_apply, val_main_c_1_apply]
  by_cases h : x1 i = 0#32
  · rw [if_neg (not_not.2 h), h]; rfl
  · rw [if_pos h]
    have : IntOp.cmpi .ne (x1 i) 0#32 = 1#1 := by
      show BitVec.ofBool (x1 i != 0#32) = 1#1
      rw [bne_iff_ne.2 h]; rfl
    rw [this]; rfl

/-- There are 2²⁴ positions. -/
theorem card_SN : (Finset.univ : Finset S16777216.Idx).card = 16777216 := by
  rw [Finset.card_univ, Shape.card_idx]
  rfl

/-- The 32-bit sum over every position is the word of the number of positions with a non-zero group word. -/
theorem v11_eq (x1 : (⟨S16777216, .i32⟩ : BufTy).Contents (Elt Ideal)) :
    val_main_v11 (F := Ideal) x1 ix0 = BitVec.ofNat 32 (∑ i : S16777216.Idx, (if x1 i ≠ 0#32 then 1 else 0 : ℕ)) := by
  unfold val_main_v11
  rw [Host.reduce_eq_fold, val_main_c_2_apply]
  rw [Finset.filter_true_of_mem (fun i _ => (eq_ix0 _).trans (eq_ix0 _).symm), fold_addi]
  exact congrArg (BitVec.ofNat 32) (Finset.sum_congr rfl fun i _ => v10_toNat x1 i)

/-- The group-1 total: the count is at most 2²⁴ < 2³¹, so the word's signed reading is the count itself. -/
theorem n1_apply (x1 : (⟨S16777216, .i32⟩ : BufTy).Contents (Elt Ideal)) :
    val_main_v12 (F := Ideal) x1 ix0 = ∑ i : Hist.SN.Idx, Hist.w (x1 i ≠ 0#32) := by
  rw [val_main_v12_apply, v11_eq]
  show (((BitVec.ofNat 32 (∑ i : S16777216.Idx, (if x1 i ≠ 0#32 then 1 else 0 : ℕ))).toInt : ℝ) : EReal) = _
  have hN : ∑ i : S16777216.Idx, (if x1 i ≠ 0#32 then 1 else 0 : ℕ) ≤ 16777216 := by
    rw [← card_SN]
    exact sum01_le _ _ (fun i => by split <;> omega)
  rw [BitVec.toInt_eq_toNat_cond, BitVec.toNat_ofNat, Nat.mod_eq_of_lt (by omega), if_pos (by omega)]
  rw [Int.cast_natCast]
  exact cast_sum01 _ _

/-! ## The result -/

section AnyInstance
variable {F : FTy → Type} [FloatOps F]

/-- The reference's last stage is the closing computation applied to its two count vectors and its group-1 total. -/
theorem result_eq_tail (x0 x1 : (⟨Cert.ReferenceIdeal.S16777216, .i32⟩ : BufTy).Contents (Elt F)) :
    Cert.ReferenceIdeal.Read.val_main_v24 (F := F) x0 x1
      = Hist.tail Cert.ReferenceIdeal.Facts₀.bcast_S_S9 Cert.ReferenceIdeal.Facts₀.reducesTo_S9_S_d0
          Cert.ReferenceIdeal.Facts₀.h_S_
          (val_main_v15 (F := F) x0 x1) (val_main_v19 (F := F) x0 x1) (val_main_v12 (F := F) x1) := rfl

end AnyInstance

end Hist.Ref

end
-- ==== Proof.Count.lean ====
/-
  Counting: the per-class accumulators of the histogram, summed over lanes, cores, blocks and rows, are sums over
  the 2²⁴ flat positions of the weight of a test on the combined word p i * 2 + a i.
-/
import proofs.«411819_j74990128988581_3_alg».proof.Proof.Spec

noncomputable section

open scoped BigOperators

namespace Hist.Count

open Idealize.ShloMosaic Idealize.ShloMosaic.ValueIdx

/-! ## Weights as real numbers -/

/-- The weight of a test as a real number. -/
def wr (P : Prop) [Decidable P] : ℝ := if P then 1 else 0

theorem w_eq (P : Prop) [Decidable P] : w P = ((wr P : ℝ) : EReal) := by
  by_cases h : P <;> simp [w, wr, h]

/-- The inclusion of the reals in the extended reals commutes with finite sums. -/
theorem coe_sum {ι : Type*} (s : Finset ι) (f : ι → ℝ) :
    ((∑ i ∈ s, f i : ℝ) : EReal) = ∑ i ∈ s, ((f i : ℝ) : EReal) := by
  classical
  refine Finset.induction_on s ?_ ?_
  · simp
  · intro b s hb ih
    rw [Finset.sum_insert hb, Finset.sum_insert hb, EReal.coe_add, ih]

theorem wr_congr {P Q : Prop} [Decidable P] [Decidable Q] (h : P ↔ Q) : wr P = wr Q := by
  by_cases hQ : Q
  · have hP : P := h.mpr hQ
    simp [wr, hP, hQ]
  · have hP : ¬ P := fun hp => hQ (h.mp hp)
    simp [wr, hP, hQ]

theorem wr_and (P Q : Prop) [Decidable P] [Decidable Q] : wr (P ∧ Q) = wr P * wr Q := by
  by_cases hP : P <;> by_cases hQ : Q <;> simp [wr, hP, hQ]

theorem wr_not (P : Prop) [Decidable P] : wr (¬ P) = 1 - wr P := by
  by_cases hP : P <;> simp [wr, hP]

/-! ## Words in range -/

theorem toNat_lt_of_toInt (v : BitVec 32) (n : ℕ) (h0 : 0 ≤ v.toInt) (h1 : v.toInt < (n : ℤ)) : v.toNat < n := by
  have hv := v.isLt
  rw [BitVec.toInt_eq_toNat_cond] at h0 h1
  by_cases hc : 2 * v.toNat < 2 ^ 32
  · rw [if_pos hc] at h1
    omega
  · rw [if_neg hc] at h0
    omega

theorem eq_ofNat_iff (v : BitVec 32) (r : ℕ) (hr : r < 9) : v = BitVec.ofNat 32 r ↔ v.toNat = r := by
  constructor
  · intro h
    rw [h, BitVec.toNat_ofNat]
    omega
  · intro h
    apply BitVec.eq_of_toNat_eq
    rw [BitVec.toNat_ofNat, h]
    omega

theorem ne_zero_iff (u : BitVec 32) : u ≠ 0#32 ↔ u.toNat ≠ 0 := by
  constructor
  · intro h h0
    apply h
    apply BitVec.eq_of_toNat_eq
    rw [h0]
    rfl
  · intro h h0
    apply h
    rw [h0]
    rfl

/-- A word whose signed value is in [0, 9) is one of the nine class words. -/
theorem class_word (v : BitVec 32) (h : 0 ≤ v.toInt ∧ v.toInt < 9) : ∃ c : Fin 9, v = BitVec.ofNat 32 c.val := by
  have hlt : v.toNat < 9 := toNat_lt_of_toInt v 9 h.1 (by exact_mod_cast h.2)
  exact ⟨⟨v.toNat, hlt⟩, (eq_ofNat_iff v v.toNat hlt).mpr rfl⟩

/-- Without wrap-around the combined word's signed value is twice the class plus the group. -/
theorem comb_toInt (v u : BitVec 32) (hv : v.toNat < 9) (hu : u.toNat < 2) :
    (v * 2#32 + u).toInt = 2 * (v.toNat : ℤ) + (u.toNat : ℤ) := by
  have h2 : (2#32).toNat = 2 := rfl
  have hn : (v * 2#32 + u).toNat = 2 * v.toNat + u.toNat := by
    rw [BitVec.toNat_add, BitVec.toNat_mul, h2]
    omega
  rw [BitVec.toInt_eq_toNat_cond, hn, if_pos (by omega)]
  push_cast
  ring

theorem odd_iff (v u : BitVec 32) (hv : v.toNat < 9) (hu : u.toNat < 2) (r : Fin 9) :
    (v * 2#32 + u).toInt = 2 * (r.val : ℤ) + 1 ↔ (v = BitVec.ofNat 32 r.val ∧ u ≠ 0#32) := by
  rw [comb_toInt v u hv hu, eq_ofNat_iff v r.val r.isLt, ne_zero_iff]
  omega

theorem even_iff (v u : BitVec 32) (hv : v.toNat < 9) (hu : u.toNat < 2) (r : Fin 9) :
    (v * 2#32 + u).toInt = 2 * (r.val : ℤ) ↔ (v = BitVec.ofNat 32 r.val ∧ ¬ u ≠ 0#32) := by
  rw [comb_toInt v u hv hu, eq_ofNat_iff v r.val r.isLt, ne_zero_iff]
  omega

/-- Exactly one of the nine class tests holds for a class word. -/
theorem nine_one (v : BitVec 32) (hv : ∃ c : Fin 9, v = BitVec.ofNat 32 c.val) :
    ∑ c : Fin 9, wr (v = BitVec.ofNat 32 c.val) = 1 := by
  obtain ⟨c0, rfl⟩ := hv
  rw [Finset.sum_eq_single c0]
  · simp [wr]
  · intro b _ hb
    have hne : ¬ (BitVec.ofNat 32 c0.val = BitVec.ofNat 32 b.val) := by
      intro h
      apply hb
      have h1 := (eq_ofNat_iff (BitVec.ofNat 32 c0.val) b.val b.isLt).mp h
      rw [BitVec.toNat_ofNat] at h1
      have := c0.isLt
      apply Fin.ext
      omega
    simp [wr, hne]
  · intro h
    exact absurd (Finset.mem_univ _) h

/-! ## The flat position of a row of a block of a core -/

/-- Lane l of row k of block j of core core, as a flat position. -/
def pos (core : Fin 2) (j : Fin 8) (k : Fin 8192) (l : Fin 128) : SN.Idx :=
  ix1 ⟨((core.val * 8 + j.val) * 8192 + k.val) * 128 + l.val, by
    have := core.isLt; have := j.isLt; have := k.isLt; have := l.isLt; omega⟩

theorem blockOf_apply (p : SN.Idx → BitVec 32) (core : Fin 2) (j : Fin 8) (k : Fin 8192) (l : Fin 128) :
    blockOf p (blk core j) (ix2 k l) = p (pos core j k l) := rfl

/-- Positions correspond one to one to (lane, core, block, row). -/
def posEquiv : Fin 128 × Fin 2 × Fin 8 × Fin 8192 ≃ SN.Idx where
  toFun q := pos q.2.1 q.2.2.1 q.2.2.2 q.1
  invFun i :=
    (⟨(i 0).val % 128, Nat.mod_lt _ (by norm_num)⟩,
     ⟨(i 0).val / 128 / 8192 / 8, by
        have h : (i 0).val < 16777216 := (i 0).isLt
        omega⟩,
     ⟨(i 0).val / 128 / 8192 % 8, Nat.mod_lt _ (by norm_num)⟩,
     ⟨(i 0).val / 128 % 8192, Nat.mod_lt _ (by norm_num)⟩)
  left_inv := by
    rintro ⟨l, core, j, k⟩
    have := core.isLt; have := j.isLt; have := k.isLt; have := l.isLt
    refine Prod.ext (Fin.ext ?_) (Prod.ext (Fin.ext ?_) (Prod.ext (Fin.ext ?_) (Fin.ext ?_)))
    · show (((core.val * 8 + j.val) * 8192 + k.val) * 128 + l.val) % 128 = l.val
      omega
    · show (((core.val * 8 + j.val) * 8192 + k.val) * 128 + l.val) / 128 / 8192 / 8 = core.val
      omega
    · show (((core.val * 8 + j.val) * 8192 + k.val) * 128 + l.val) / 128 / 8192 % 8 = j.val
      omega
    · show (((core.val * 8 + j.val) * 8192 + k.val) * 128 + l.val) / 128 % 8192 = k.val
      omega
  right_inv := by
    intro i
    have h : (i 0).val < 16777216 := (i 0).isLt
    funext d
    match d with
    | ⟨0, _⟩ =>
      apply Fin.ext
      show (((i 0).val / 128 / 8192 / 8 * 8 + (i 0).val / 128 / 8192 % 8) * 8192 + (i 0).val / 128 % 8192) * 128
        + (i 0).val % 128 = (i 0).val
      omega

/-- A sum over lanes, cores, blocks and rows is the sum over the flat positions. -/
theorem sum_pos {M : Type*} [AddCommMonoid M] (f : SN.Idx → M) :
    ∑ l : Fin 128, ∑ core : Fin 2, ∑ j : Fin 8, ∑ k : Fin 8192, f (pos core j k l) = ∑ i : SN.Idx, f i := by
  refine Eq.trans ?_ (posEquiv.sum_comp f)
  simp only [Fintype.sum_prod_type]
  rfl

/-! ## One lane of one block -/

section Block

variable (x a : SB.Idx → BitVec 32) (l : Fin 128)

theorem colTot_eq (r : ℕ) :
    colTot x r l = ((∑ k : Fin 8192, wr (x (ix2 k l) = BitVec.ofNat 32 r) : ℝ) : EReal) := by
  unfold colTot
  rw [coe_sum]
  exact Finset.sum_congr rfl (fun k _ => w_eq _)

theorem colG1_eq (r : ℕ) :
    colG1 x a r l
      = ((∑ k : Fin 8192, wr (x (ix2 k l) = BitVec.ofNat 32 r) * wr (a (ix2 k l) ≠ 0#32) : ℝ) : EReal) := by
  unfold colG1
  rw [coe_sum]
  refine Finset.sum_congr rfl (fun k _ => ?_)
  rw [w_eq, w_eq, EReal.coe_mul]

theorem colW_eq : colW a l = ((∑ k : Fin 8192, wr (a (ix2 k l) ≠ 0#32) : ℝ) : EReal) := by
  unfold colW
  rw [coe_sum]
  exact Finset.sum_congr rfl (fun k _ => w_eq _)

variable (hx : ∀ k : Fin 8192, ∃ c : Fin 9, x (ix2 k l) = BitVec.ofNat 32 c.val)

include hx

/-- The nine class counts of a lane add up to its 8192 rows. -/
theorem tot_rows : ∑ c : Fin 9, ∑ k : Fin 8192, wr (x (ix2 k l) = BitVec.ofNat 32 c.val) = 8192 := by
  rw [Finset.sum_comm, Finset.sum_congr rfl (fun k _ => nine_one _ (hx k))]
  simp

/-- The nine group-1 class counts of a lane add up to its number of group-1 rows. -/
theorem g1_rows :
    ∑ c : Fin 9, ∑ k : Fin 8192, wr (x (ix2 k l) = BitVec.ofNat 32 c.val) * wr (a (ix2 k l) ≠ 0#32)
      = ∑ k : Fin 8192, wr (a (ix2 k l) ≠ 0#32) := by
  rw [Finset.sum_comm]
  refine Finset.sum_congr rfl (fun k _ => ?_)
  rw [← Finset.sum_mul, nine_one _ (hx k), one_mul]

/-- What a block adds to row r of the totals is the count of class r, for the complement row 8 too. -/
theorem dTot_eq (r : Fin 16) (hr : r.val < 9) :
    dTot x r l = ((∑ k : Fin 8192, wr (x (ix2 k l) = BitVec.ofNat 32 r.val) : ℝ) : EReal) := by
  unfold dTot
  by_cases h8 : r.val < 8
  · rw [if_pos h8]
    exact colTot_eq x l r.val
  · have h8' : r.val = 8 := by omega
    rw [if_neg h8, if_pos h8']
    simp only [colTot_eq]
    rw [← coe_sum, ← EReal.coe_sub]
    congr 1
    have h := tot_rows x l hx
    rw [Fin.sum_univ_castSucc] at h
    simp only [Fin.coe_castSucc, Fin.val_last] at h
    rw [h8']
    linarith

/-- What a block adds to row r of the group-1 counts is the group-1 count of class r. -/
theorem dG1_eq (r : Fin 16) (hr : r.val < 9) :
    dG1 x a r l
      = ((∑ k : Fin 8192, wr (x (ix2 k l) = BitVec.ofNat 32 r.val) * wr (a (ix2 k l) ≠ 0#32) : ℝ) : EReal) := by
  unfold dG1
  by_cases h8 : r.val < 8
  · rw [if_pos h8]
    exact colG1_eq x a l r.val
  · have h8' : r.val = 8 := by omega
    rw [if_neg h8, if_pos h8']
    simp only [colG1_eq, colW_eq]
    rw [← coe_sum, ← EReal.coe_sub]
    congr 1
    have h := g1_rows x a l hx
    rw [Fin.sum_univ_castSucc] at h
    simp only [Fin.coe_castSucc, Fin.val_last] at h
    rw [h8']
    linarith

end Block

/-! ## The per-class totals as sums over the flat positions -/

theorem kTot_eq (p : SN.Idx → BitVec 32) (hp : ∀ i, ∃ c : Fin 9, p i = BitVec.ofNat 32 c.val) (r : Fin 9) :
    kTot p r = ((∑ i : SN.Idx, wr (p i = BitVec.ofNat 32 r.val) : ℝ) : EReal) := by
  unfold kTot accTot
  rw [← sum_pos (fun i => wr (p i = BitVec.ofNat 32 r.val))]
  simp only [coe_sum]
  refine Finset.sum_congr rfl (fun l _ => Finset.sum_congr rfl (fun core _ => Finset.sum_congr rfl (fun j _ => ?_)))
  rw [dTot_eq (blockOf p (blk core j)) l (fun k => hp _) ⟨r.val, by have := r.isLt; omega⟩ r.isLt, coe_sum]
  rfl

theorem kG1_eq (p a : SN.Idx → BitVec 32) (hp : ∀ i, ∃ c : Fin 9, p i = BitVec.ofNat 32 c.val) (r : Fin 9) :
    kG1 p a r = ((∑ i : SN.Idx, wr (p i = BitVec.ofNat 32 r.val) * wr (a i ≠ 0#32) : ℝ) : EReal) := by
  unfold kG1 accG1
  rw [← sum_pos (fun i => wr (p i = BitVec.ofNat 32 r.val) * wr (a i ≠ 0#32))]
  simp only [coe_sum]
  refine Finset.sum_congr rfl (fun l _ => Finset.sum_congr rfl (fun core _ => Finset.sum_congr rfl (fun j _ => ?_)))
  rw [dG1_eq (blockOf p (blk core j)) (blockOf a (blk core j)) l (fun k => hp _)
    ⟨r.val, by have := r.isLt; omega⟩ r.isLt, coe_sum]
  rfl

/-! ## The three identities -/

section Main

variable (p a : SN.Idx → BitVec 32)
  (hr : ∀ i, (0 ≤ (p i).toInt ∧ (p i).toInt < 9) ∧ (0 ≤ (a i).toInt ∧ (a i).toInt < 2))

include hr

theorem p_lt (i : SN.Idx) : (p i).toNat < 9 :=
  toNat_lt_of_toInt (p i) 9 (hr i).1.1 (by exact_mod_cast (hr i).1.2)

theorem a_lt (i : SN.Idx) : (a i).toNat < 2 :=
  toNat_lt_of_toInt (a i) 2 (hr i).2.1 (by exact_mod_cast (hr i).2.2)

/-- Class r's group-1 count is the number of positions whose combined word is 2r + 1. -/
theorem g1_eq (r : Fin 9) :
    kG1 p a r = ∑ i : SN.Idx, w ((p i * 2#32 + a i).toInt = 2 * (r.val : ℤ) + 1) := by
  rw [kG1_eq p a (fun i => class_word _ (hr i).1) r, coe_sum]
  refine Finset.sum_congr rfl (fun i _ => ?_)
  rw [w_eq, ← wr_and, wr_congr (odd_iff (p i) (a i) (p_lt p a hr i) (a_lt p a hr i) r)]

/-- Class r's total less its group-1 count is the number of positions whose combined word is 2r. -/
theorem g0_eq (r : Fin 9) :
    kTot p r - kG1 p a r = ∑ i : SN.Idx, w ((p i * 2#32 + a i).toInt = 2 * (r.val : ℤ)) := by
  rw [kTot_eq p (fun i => class_word _ (hr i).1) r, kG1_eq p a (fun i => class_word _ (hr i).1) r,
    ← EReal.coe_sub, ← Finset.sum_sub_distrib, coe_sum]
  refine Finset.sum_congr rfl (fun i _ => ?_)
  rw [w_eq, wr_congr (even_iff (p i) (a i) (p_lt p a hr i) (a_lt p a hr i) r), wr_and, wr_not (a i ≠ 0#32)]
  congr 1
  ring

/-- The nine group-1 counts add up to the number of positions in group 1. -/
theorem n1_eq : ∑ r : Fin 9, kG1 p a r = ∑ i : SN.Idx, w (a i ≠ 0#32) := by
  rw [Finset.sum_congr rfl (fun r _ => kG1_eq p a (fun i => class_word _ (hr i).1) r), ← coe_sum,
    Finset.sum_comm, coe_sum]
  refine Finset.sum_congr rfl (fun i _ => ?_)
  rw [← Finset.sum_mul, nine_one _ (class_word _ (hr i).1), one_mul, w_eq]

end Main

end Hist.Count

end
-- ==== Proof.lean ====
/-
  The claim: a fairness statistic of a classifier's predictions, computed by a blocked histogram kernel and by a
  scatter-add reference, is the same extended real.

  Both programs take 2²⁴ class ids `preds` and 2²⁴ group ids `attrs` (32-bit words) and return
  Σ_r (g₀ r / (2²⁴ − n₁) − g₁ r / n₁)² over the nine classes r, where g_g r is the number of samples of class r in
  group g and n₁ the number of samples whose group id is not zero.  Under the precondition both inputs are labels
  in their label range, 0 ≤ preds < 9 and 0 ≤ attrs < 2.

  The reference forms the bin id preds·2 + attrs (no wrap under the ranges), scatter-adds ones into eighteen bins
  and reads g₀, g₁ off the even and odd bins; n₁ is the integer sum of the bits (attrs ≠ 0), which cannot wrap.
  The kernel walks sixteen blocks of 8192 rows by 128 lanes, eight per core.  Per block and lane it counts, by a
  product of an all-ones tile with a 0/1 mask, the rows of each of the classes 0..7 and those among them with a
  non-zero group id, and obtains class 8 as the complement (all 8192 rows, resp. all rows with a non-zero group id,
  minus the first eight classes): under the ranges every row has exactly one of the nine classes, so the
  complement is the count of class 8.  The counts accumulate over a core's eight blocks in a resident output
  block; the host then sums over the cores and the lanes, takes g₀ as totals minus g₁ and n₁ as the sum of g₁ over
  the classes, which under the ranges is the number of non-zero group ids.  Re-indexing lanes, cores, blocks and
  rows as the 2²⁴ flat positions, the three inputs of the closing computation agree, and the closing computation
  itself is one function applied on both sides, never opened.
  All arithmetic is on naturals cast into the extended reals; no finiteness question arises.
-/
import proofs.«411819_j74990128988581_3_alg».proof.Defs
import proofs.«411819_j74990128988581_3_alg».proof.Proof.Gen.Kernel.Frame
import proofs.«411819_j74990128988581_3_alg».proof.Proof.Gen.KernelIdeal.Frame
import proofs.«411819_j74990128988581_3_alg».proof.Proof.Gen.ReferenceIdeal
import proofs.«411819_j74990128988581_3_alg».proof.Proof.Gen.Pre_any_inputs
import proofs.«411819_j74990128988581_3_alg».proof.Proof.RefRead
import proofs.«411819_j74990128988581_3_alg».proof.Proof.PreDecode
import proofs.«411819_j74990128988581_3_alg».proof.Proof.KTail
import proofs.«411819_j74990128988581_3_alg».proof.Proof.RefValue
import proofs.«411819_j74990128988581_3_alg».proof.Proof.Count
import Idealize.ShloMosaic.PureOps.Ideal.Laws
import Idealize.ShloMosaic.Lib.ValueIdx
import Idealize.ShloMosaic.Lib.ValueIdxRank1

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the label ranges the three inputs of the closing computation agree: the reference's group-1 column is the
    kernel's group-1 counts, its group-0 column the kernel's totals minus those, and its number of group-1 samples
    the sum of the kernel's group-1 counts over the classes. -/
theorem inputs_eq (p a : Hist.SN.Idx → BitVec 32)
    (hr : ∀ i, (0 ≤ (p i).toInt ∧ (p i).toInt < 9) ∧ (0 ≤ (a i).toInt ∧ (a i).toInt < 2)) :
    Cert.ReferenceIdeal.Read.val_main_v15 (F := Ideal) p a = subf (F := Ideal) (φ := .f32) (Hist.kTotV p) (Hist.kG1V p a)
    ∧ Cert.ReferenceIdeal.Read.val_main_v19 (F := Ideal) p a = Hist.kG1V p a
    ∧ Cert.ReferenceIdeal.Read.val_main_v12 (F := Ideal) a
        = Host.reduceAdd (F := Ideal) (Hist.kG1V p a) (constant (F := Ideal) Cert.KernelIdeal.S_ .f32 0x00000000#32)
            Cert.KernelIdeal.Facts₀.reducesTo_S9_S_d0 Cert.KernelIdeal.Facts₀.h_S_ := by
  refine ⟨?_, ?_, ?_⟩
  · funext j
    obtain ⟨r, rfl⟩ : ∃ r : Fin 9, j = ix1 r := ⟨j 0, eq_ix1 j⟩
    rw [Hist.Ref.g0_apply, ← Hist.Count.g0_eq p a hr]
    rfl
  · funext j
    obtain ⟨r, rfl⟩ : ∃ r : Fin 9, j = ix1 r := ⟨j 0, eq_ix1 j⟩
    rw [Hist.Ref.g1_apply, ← Hist.Count.g1_eq p a hr]
    rfl
  · funext j
    rw [eq_ix0 j, Hist.Ref.n1_apply, ← Hist.Count.n1_eq p a hr]
    have h1 : Host.reduceAdd (F := Ideal) (Hist.kG1V p a) (constant (F := Ideal) Cert.KernelIdeal.S_ .f32 0x00000000#32)
        Cert.KernelIdeal.Facts₀.reducesTo_S9_S_d0 Cert.KernelIdeal.Facts₀.h_S_ ix0
          = 0 + ∑ j : Hist.S9.Idx, Hist.kG1V p a j := by
      simp only [Host.reduceAdd, Ideal.hostReduceAdd_def]
      rw [Ideal.hostReduceAdd_total _ (fun b => b.elim0), constant_apply, Ideal.ofBits_zero_f32]
    rw [h1, zero_add, ← Equiv.sum_comp idxEquiv1.symm]
    rfl

theorem algebraic : Cert.algebraic_KernelIdeal_ReferenceIdeal := by
  intro m ρ m' ρ' hpre hagree
  refine ⟨fun c => Hist.KTail.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Hist.KTail.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v24_eq, Hist.Ref.result_eq_tail]
  have hr := Hist.Pre.ranges (F := Ideal) _ _ (hpre c)
  obtain ⟨e0, e1, e2⟩ := inputs_eq _ _ hr
  rw [e0, e1, e2]
  rfl

theorem claim : Cert.Claim :=
  ⟨Cert.Kernel.Gen.facts, Cert.KernelIdeal.Gen.facts, Cert.ReferenceIdeal.Gen.facts, Cert.Pre_any_inputs.Gen.facts,
    frame_k, frame_ki, frame_ri, preserves, algebraic⟩

end Cert.Proof

end
